-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64 : Shape := ⟨2, ![64, 64]⟩
abbrev S1000000x64 : Shape := ⟨2, ![1000000, 64]⟩
abbrev S_ : Shape := ⟨0, ![]⟩

class Facts : Prop where
  bcast_S_S64x64 : S_.BroadcastsInDim S64x64 (![] : Fin 0 → Fin S64x64.rank)
  reducesTo_S64x64_S_d0_1 : S64x64.ReducesTo [0, 1] S_
  h_S_ : 0 < S_.numel
  bcast_S_S1000000x64 : S_.BroadcastsInDim S1000000x64 (![] : Fin 0 → Fin S1000000x64.rank)
  reducesTo_S1000000x64_S_d0_1 : S1000000x64.ReducesTo [0, 1] S_

variable [Facts]

def fn {F : FTy → Type} [FloatOps F] (main_arg0 : FVec F S64x64 .f32) (main_arg1 : FVec F S1000000x64 .f32) : IVec S_ 1 :=
  let main_v0 : FVec F S64x64 .f32 := Host.absf main_arg0
  let main_cst : FVec F S_ .f32 := constant S_ .f32 0x7F800000#32
  let main_v1 : FVec F S64x64 .f32 := broadcastInDim S64x64 ![] bcast_S_S64x64 main_cst
  let main_v2 : IVec S64x64 1 := cmpf .olt main_v0 main_v1
  let main_c : IVec S_ 1 := constantI S_ 1 1#1
  let main_v3 : IVec S_ 1 := (fun x v => Host.reduce IntOp.andi x v reducesTo_S64x64_S_d0_1 h_S_) main_v2 main_c
  let main_v4 : FVec F S1000000x64 .f32 := Host.absf main_arg1
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  main_v8
-- ==== Kernel.lean ====
abbrev S64x64 : Shape := ⟨2, ![64, 64]⟩
abbrev S1000000x64 : Shape := ⟨2, ![1000000, 64]⟩
abbrev S2000x64 : Shape := ⟨2, ![2000, 64]⟩
abbrev S64x1 : Shape := ⟨2, ![64, 1]⟩
abbrev S64x2000 : Shape := ⟨2, ![64, 2000]⟩
abbrev S64 : Shape := ⟨1, ![64]⟩

abbrev nBuf : Space → Nat
  | .hbm => 3
  | .vmem => 7
  | .smem => 0
  | _ => 0

abbrev bufTy : (tb : Table) → Fin (tcTables nBuf tb) → BufTy
  | .hbm, ⟨0, _⟩ => ⟨S64x64, .f32⟩
  | .hbm, ⟨1, _⟩ => ⟨S1000000x64, .f32⟩
  | .hbm, ⟨2, _⟩ => ⟨S64x64, .f32⟩
  | .local _ .vmem, ⟨0, _⟩ => ⟨S64x64, .f32⟩
  | .local _ .vmem, ⟨1, _⟩ => ⟨S2000x64, .f32⟩
  | .local _ .vmem, ⟨2, _⟩ => ⟨S2000x64, .f32⟩
  | .local _ .vmem, ⟨3, _⟩ => ⟨S64x64, .f32⟩
  | .local _ .vmem, ⟨4, _⟩ => ⟨S64x64, .f32⟩
  | .local _ .vmem, ⟨5, _⟩ => ⟨S64x1, .f32⟩
  | .local _ .vmem, ⟨6, _⟩ => ⟨S64x1, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [FloatOps F]

abbrev grid0 : Pipeline.Grid := ⟨1, ![500], ![false]⟩

def k0_cond2 (i : grid0.Coords) : BitVec 1 :=
  let arg0 : BitVec 32 := BitVec.ofNat 32 (i 0).val
  let c499_i32 : BitVec 32 := 499#32
  let v34 : BitVec 1 := Scalar.cmpi .eq arg0 c499_i32
  let v35 : BitVec 32 := Scalar.extui v34
  let c0_i32_19 : BitVec 32 := 0#32
  let v36 : BitVec 1 := Scalar.cmpi .ne v35 c0_i32_19
  v36

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S2000x64_S2000x64_0_0 : ∀ a, (![0, 0] : Fin 2 → Nat) a + S2000x64.size a ≤ S2000x64.size a
  h_S2000x64 : 0 < S2000x64.numel
  reduces_S64x2000_S64 : S64x2000.Reduces [1] S64
  shapeCasts_S64_S64x1 : S64.ShapeCasts S64x1
  broadcasts_S64x1_S64x2000 : S64x1.Broadcasts S64x2000
  broadcasts_S64x1_S64x64 : S64x1.Broadcasts S64x64
  dot_S64x64_S2000x64_S64x2000_1_1_0_0_n_n_wf : DotDims.WF S64x64 S2000x64 S64x2000 [1] [1] [0] [0] [] []
  dot_S64x2000_S2000x64_S64x64_1_0_0_1_n_n_wf : DotDims.WF S64x2000 S2000x64 S64x64 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x64.size a ≤ S64x64.size a
  hwx0_0 : ∀ i : grid0.Coords, EltTy.bits .f32 = 32 ∨ (Rect.block (s := S64x64) S64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S1000000x64.size a
  hwx0_1 : ∀ i : grid0.Coords, EltTy.bits .f32 = 32 ∨ (Rect.block (s := S1000000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)

variable [Facts₀]

def dot_S64x64_S2000x64_S64x2000_1_1_0_0_n_n : DotDims S64x64 S2000x64 S64x2000 where
  lhsContracting := [1]
  rhsContracting := [1]
  lhsNonContracting := [0]
  rhsNonContracting := [0]
  lhsBatch := []
  rhsBatch := []
  wf := dot_S64x64_S2000x64_S64x2000_1_1_0_0_n_n_wf
def dot_S64x2000_S2000x64_S64x64_1_0_0_1_n_n : DotDims S64x2000 S2000x64 S64x64 where
  lhsContracting := [1]
  rhsContracting := [0]
  lhsNonContracting := [0]
  rhsNonContracting := [1]
  lhsBatch := []
  rhsBatch := []
  wf := dot_S64x2000_S2000x64_S64x64_1_0_0_1_n_n_wf

abbrev win0_0 : Pipeline.Window sig grid0 :=
  Pipeline.Window.ofSpec (Memref.whole main_arg0) S64x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x64.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x64 : Shape := ⟨2, ![64, 64]⟩
abbrev S1000000x64 : Shape := ⟨2, ![1000000, 64]⟩
abbrev S64x1000000 : Shape := ⟨2, ![64, 1000000]⟩
abbrev S_ : Shape := ⟨0, ![]⟩
abbrev S64 : Shape := ⟨1, ![64]⟩
abbrev S64x1 : Shape := ⟨2, ![64, 1]⟩

abbrev nBuf : Space → Nat
  | .hbm => 22
  | .vmem => 0
  | .smem => 0
  | _ => 0

abbrev bufTy : (tb : Table) → Fin (tcTables nBuf tb) → BufTy
  | .hbm, ⟨0, _⟩ => ⟨S64x64, .f32⟩
  | .hbm, ⟨1, _⟩ => ⟨S1000000x64, .f32⟩
  | .hbm, ⟨2, _⟩ => ⟨S64x1000000, .f32⟩
  | .hbm, ⟨3, _⟩ => ⟨S64x1000000, .f32⟩
  | .hbm, ⟨4, _⟩ => ⟨S_, .f32⟩
  | .hbm, ⟨5, _⟩ => ⟨S64x1000000, .f32⟩
  | .hbm, ⟨6, _⟩ => ⟨S64x1000000, .f32⟩
  | .hbm, ⟨7, _⟩ => ⟨S_, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S64x1, .f32⟩
  | .hbm, ⟨13, _⟩ => ⟨S64x1000000, .f32⟩
  | .hbm, ⟨14, _⟩ => ⟨S64x1000000, .f32⟩
  | .hbm, ⟨15, _⟩ => ⟨S64x1000000, .f32⟩
  | .hbm, ⟨16, _⟩ => ⟨S_, .f32⟩
  | .hbm, ⟨17, _⟩ => ⟨S64, .f32⟩
  | .hbm, ⟨18, _⟩ => ⟨S64x1, .f32⟩
  | .hbm, ⟨19, _⟩ => ⟨S64x1000000, .f32⟩
  | .hbm, ⟨20, _⟩ => ⟨S64x1000000, .f32⟩
  | .hbm, ⟨21, _⟩ => ⟨S64x64, .f32⟩
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  transposes_S1000000x64_S64x1000000_1_0 : S1000000x64.Transposes [1, 0] S64x1000000
  bcast_S_S64x1000000 : S_.BroadcastsInDim S64x1000000 (![] : Fin 0 → Fin S64x1000000.rank)
  reducesTo_S64x1000000_S64_d1 : S64x1000000.ReducesTo [1] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S64x1_S64x1000000_0_1 : S64x1.BroadcastsInDim S64x1000000 (![0, 1] : Fin 2 → Fin S64x1000000.rank)
  dot_S64x64_S64x1000000_S64x1000000_1_0_0_1_n_n_wf : DotDims.WF S64x64 S64x1000000 S64x1000000 [1] [0] [0] [1] [] []
  dot_S64x1000000_S1000000x64_S64x64_1_0_0_1_n_n_wf : DotDims.WF S64x1000000 S1000000x64 S64x64 [1] [0] [0] [1] [] []

variable [Facts₀]

def dot_S64x64_S64x1000000_S64x1000000_1_0_0_1_n_n : DotDims S64x64 S64x1000000 S64x1000000 where
  lhsContracting := [1]
  rhsContracting := [0]
  lhsNonContracting := [0]
  rhsNonContracting := [1]
  lhsBatch := []
  rhsBatch := []
  wf := dot_S64x64_S64x1000000_S64x1000000_1_0_0_1_n_n_wf
def dot_S64x1000000_S1000000x64_S64x64_1_0_0_1_n_n : DotDims S64x1000000 S1000000x64 S64x64 where
  lhsContracting := [1]
  rhsContracting := [0]
  lhsNonContracting := [0]
  rhsNonContracting := [1]
  lhsBatch := []
  rhsBatch := []
  wf := dot_S64x1000000_S1000000x64_S64x64_1_0_0_1_n_n_wf

class Facts : Prop extends Facts₀ where

variable [Facts]
-- ==== Proof.LibFinite.lean ====
/-
  A finiteness precondition, read at an entry.

  `jnp.all(jnp.abs(a) < inf)` is printed as the reduction by `and` (into a result of one index) of the comparison of
  `|a|` with the broadcast word `0x7F800000` of `+∞`. On the extended reals `|a i| < ⊤` says exactly that `a i` is a
  real number: `|⊤| = |⊥| = ⊤`.
-/
import Idealize.ShloMosaic.PureOps.Ideal
import Idealize.ShloMosaic.PureOps.Ideal.Laws
import Idealize.ShloMosaic.Lib.ReduceAll
import Idealize.ShloMosaic.Lib.ValueIdx

noncomputable section

namespace Cert.LibFinite

open Idealize.ShloMosaic

instance : Subsingleton (⟨0, ![]⟩ : Shape).Idx := ⟨fun a b => funext fun d => d.elim0⟩

/-- An extended real whose absolute value compares below the word of `+∞` is a real number. -/
theorem real_of_abs_lt_inf (x : EReal)
    (h : FloatOps.cmpf (F := Ideal) (φ := .f32) .olt (FloatOps.hostAbsf (F := Ideal) (φ := .f32) x)
      (Ideal.ofBits .f32 0x7F800000#32) = 1#1) : ∃ r : ℝ, x = (r : EReal) := by
  induction x using EReal.rec with
  | bot =>
    exfalso
    have h' : Ideal.cmp .olt (max (⊥ : EReal) (-⊥)) (Ideal.ofBits .f32 0x7F800000#32) = 1#1 := h
    revert h'; simp [Ideal.cmp, Ideal.ofBits, Ideal.ieee]
  | coe r => exact ⟨r, rfl⟩
  | top =>
    exfalso
    have h' : Ideal.cmp .olt (max (⊤ : EReal) (-⊤)) (Ideal.ofBits .f32 0x7F800000#32) = 1#1 := h
    revert h'; simp [Ideal.cmp, Ideal.ofBits, Ideal.ieee]

/-- `jnp.all(|a| < inf)`, as printed, gives a real number at every entry of `a`. -/
theorem real_of_all {S : Shape} {axes : List (Fin S.rank)} (a : FVec Ideal S .f32)
    (hb : (⟨0, ![]⟩ : Shape).BroadcastsInDim S (![] : Fin 0 → Fin S.rank))
    (hr : S.ReducesTo axes (⟨0, ![]⟩ : Shape)) (hu : 0 < (⟨0, ![]⟩ : Shape).numel)
    (init : (⟨0, ![]⟩ : Shape).Idx → BitVec 1)
    (e : Host.reduce IntOp.andi
        (cmpf .olt (Host.absf a) (broadcastInDim S ![] hb (constant (F := Ideal) (⟨0, ![]⟩ : Shape) .f32 0x7F800000#32)))
        init hr hu ValueIdx.ix0 = 1#1)
    (i : S.Idx) : ∃ r : ℝ, a i = (r : EReal) :=
  real_of_abs_lt_inf (a i) (Host.reduce_andi_all _ init hr hu ValueIdx.ix0 e i)

end Cert.LibFinite

end
-- ==== Proof.Finite.lean ====
/-
  The precondition, read: under finite_inputs both argument arrays hold real numbers only.

  The printed predicate is the conjunction of two tests, one per array, each the reduction by "and" of |a| < +∞ over the
  whole array. Each conjunct gives, entry by entry, that the entry is a real number.
-/
import proofs.«149138_g9818295239233_cont_9to1_m_996_1_alg».proof.Defs
import proofs.«149138_g9818295239233_cont_9to1_m_996_1_alg».proof.Proof.Gen.Pre_finite_inputs
import proofs.«149138_g9818295239233_cont_9to1_m_996_1_alg».proof.Proof.LibFinite
import Idealize.ShloMosaic.Lib.Affine
import Idealize.ShloMosaic.Lib.ValueIdx

noncomputable section

namespace Cert.Finite

open Idealize.ShloMosaic

/-- Both arrays are real, entry by entry, when the printed predicate is all ones. -/
theorem real_of_pre [hP : Cert.Pre_finite_inputs.Facts]
    (q : FVec Ideal Cert.Pre_finite_inputs.S64x64 .f32) (v : FVec Ideal Cert.Pre_finite_inputs.S1000000x64 .f32)
    (h : Cert.Pre_finite_inputs.fn (F := Ideal) q v = fun _ => 1#1) :
    (∀ i, ∃ r : ℝ, q i = (r : EReal)) ∧ (∀ i, ∃ r : ℝ, v i = (r : EReal)) := by
  have e := congrFun h ValueIdx.ix0
  dsimp only [Cert.Pre_finite_inputs.fn] at e
  obtain ⟨e0, e1⟩ := IntOp.andi_eq_one.mp e
  exact ⟨Cert.LibFinite.real_of_all q _ _ _ _ e0, Cert.LibFinite.real_of_all v _ _ _ _ e1⟩

end Cert.Finite

end
-- ==== Proof.Softmax.lean ====
/-
  A softmax-weighted sum computed in one pass over blocks, on the reals and read on the extended reals.

  One row of logits is cut into blocks. Absorbing a block keeps three running quantities: a reference level
  (the largest logit seen so far), the sum of exp (logit - level) over the entries seen, and, per column, the sum of
  exp (logit - level) times a weight. When the level moves from mu to nu every old term is rescaled by exp (mu - nu),
  because exp (x - mu) * exp (mu - nu) = exp (x - nu). At the end the weighted sum over the plain sum is the
  softmax-weighted average, and that quotient does not depend on the level: a common factor exp (nu - mu) cancels.
  So the two programs need not be shown to use the same level, only a real one each.
-/
import Idealize.ShloMosaic.PureOps.Ideal
import Idealize.ShloMosaic.PureOps.Ideal.Laws

noncomputable section

namespace Cert.Softmax

open Idealize.ShloMosaic

universe u

/-- The coercion of a finite real sum is the sum of the coercions. -/
theorem coe_sum {ι : Type u} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The maximum, starting from -∞, of finitely many reals over an inhabited index set is a real number. -/
theorem fold_max_coe {ι : Type u} [Fintype ι] [Nonempty ι] (f : ι → ℝ) :
    ∃ β : ℝ, (Finset.univ : Finset ι).fold max (⊥ : EReal) (fun i => (f i : EReal)) = (β : EReal) := by
  have h1 : (Finset.univ : Finset ι).fold max (⊥ : EReal) (fun i => (f i : EReal)) ≠ ⊤ := by
    apply ne_of_lt
    rw [Finset.fold_max_lt]
    exact ⟨bot_lt_top, fun i _ => EReal.coe_lt_top _⟩
  have h2 : (Finset.univ : Finset ι).fold max (⊥ : EReal) (fun i => (f i : EReal)) ≠ ⊥ := by
    apply ne_of_gt
    rw [Finset.lt_fold_max]
    right
    obtain ⟨i⟩ := ‹Nonempty ι›
    exact ⟨i, Finset.mem_univ _, EReal.bot_lt_coe _⟩
  exact ⟨_, (EReal.coe_toReal h1 h2).symm⟩

/-- The coercion of the larger of two reals is the larger of the coercions. -/
theorem coe_max (a b : ℝ) : ((max a b : ℝ) : EReal) = max (a : EReal) (b : EReal) :=
  EReal.coe_strictMono.monotone.map_max

section Reals

variable {ι ρ : Type u} [Fintype ρ]

/-- Moving the level from μ to ν rescales every absorbed term by exp (μ - ν). -/
theorem rescale (A : Finset ι) (g c : ι → ρ → ℝ) (μ ν : ℝ) :
    (∑ s ∈ A, ∑ r, Real.exp (g s r - μ) * c s r) * Real.exp (μ - ν)
      = ∑ s ∈ A, ∑ r, Real.exp (g s r - ν) * c s r := by
  rw [Finset.sum_mul]
  refine Finset.sum_congr rfl fun s _ => ?_
  rw [Finset.sum_mul]
  refine Finset.sum_congr rfl fun r _ => ?_
  rw [mul_right_comm, ← Real.exp_add]
  congr 2
  ring

/-- The same for the plain sum of exponentials. -/
theorem rescale_one (A : Finset ι) (g : ι → ρ → ℝ) (μ ν : ℝ) :
    (∑ s ∈ A, ∑ r, Real.exp (g s r - μ)) * Real.exp (μ - ν) = ∑ s ∈ A, ∑ r, Real.exp (g s r - ν) := by
  simpa using rescale A g (fun _ _ => 1) μ ν

end Reals

section Quotient

variable {N : Type u} [Fintype N]

/-- The softmax-weighted average does not depend on the level the exponentials are taken against. -/
theorem average_shift (L V : N → ℝ) (μ ν : ℝ) :
    (∑ n, Real.exp (L n - μ) * V n) / (∑ n, Real.exp (L n - μ))
      = (∑ n, Real.exp (L n - ν) * V n) / (∑ n, Real.exp (L n - ν)) := by
  have e : ∀ n, Real.exp (L n - μ) = Real.exp (L n - ν) * Real.exp (ν - μ) := fun n => by
    rw [← Real.exp_add]; congr 1; ring
  have h1 : (∑ n, Real.exp (L n - μ) * V n) = (∑ n, Real.exp (L n - ν) * V n) * Real.exp (ν - μ) := by
    rw [Finset.sum_mul]; exact Finset.sum_congr rfl fun n _ => by rw [e n]; ring
  have h2 : (∑ n, Real.exp (L n - μ)) = (∑ n, Real.exp (L n - ν)) * Real.exp (ν - μ) := by
    rw [Finset.sum_mul]; exact Finset.sum_congr rfl fun n _ => e n
  rw [h1, h2, mul_div_mul_right _ _ (Real.exp_pos _).ne']

/-- Normalising each exponential by the total before weighting, on the extended reals, is the real quotient of the
    weighted sum by the total: the total is a positive real, so every division is a real one. -/
theorem normalised_sum [Nonempty N] (L V : N → ℝ) (ν : ℝ) :
    (∑ n, Ideal.div (Ideal.exp ((L n : EReal) - (ν : EReal))) (0 + ∑ k, Ideal.exp ((L k : EReal) - (ν : EReal))) * (V n : EReal))
      = (((∑ n, Real.exp (L n - ν) * V n) / (∑ n, Real.exp (L n - ν)) : ℝ) : EReal) := by
  have hpos : 0 < ∑ k : N, Real.exp (L k - ν) :=
    Finset.sum_pos (fun k _ => Real.exp_pos _) Finset.univ_nonempty
  have hS : (0 + ∑ k, Ideal.exp ((L k : EReal) - (ν : EReal))) = ((∑ k, Real.exp (L k - ν) : ℝ) : EReal) := by
    rw [zero_add, coe_sum]
    exact Finset.sum_congr rfl fun k _ => by rw [← EReal.coe_sub, Ideal.exp_coe]
  have hdiv : (∑ n, Real.exp (L n - ν) * V n) / (∑ n, Real.exp (L n - ν))
      = ∑ n, Real.exp (L n - ν) * V n / (∑ k, Real.exp (L k - ν)) :=
    Finset.sum_div Finset.univ (fun n => Real.exp (L n - ν) * V n) (∑ k, Real.exp (L k - ν))
  rw [hS, hdiv]
  refine (Finset.sum_congr rfl fun n _ => ?_).trans (coe_sum _ _).symm
  rw [Ideal.div_coe hpos.ne', ← EReal.coe_sub, Ideal.exp_coe, ← EReal.coe_mul, ← EReal.coe_mul]
  congr 1
  field_simp

end Quotient

section State

variable {ι ρ δ : Type u} [DecidableEq ι] [Fintype ρ]

/-- What one row's three running quantities hold once the blocks in A have been absorbed: the level is a real μ, the
    running sum is the sum of exp (x - μ) over the absorbed entries, and the running weighted sum, per column d, is the
    sum of exp (x - μ) · w. -/
def Absorbed (x : ι → ρ → ℝ) (w : ι → ρ → δ → ℝ) (A : Finset ι) (lvl tot : EReal) (acc : δ → EReal) : Prop :=
  ∃ μ : ℝ, lvl = (μ : EReal) ∧ tot = ((∑ s ∈ A, ∑ r, Real.exp (x s r - μ) : ℝ) : EReal)
    ∧ ∀ d, acc d = ((∑ s ∈ A, ∑ r, Real.exp (x s r - μ) * w s r d : ℝ) : EReal)

variable [Nonempty ρ] {x : ι → ρ → ℝ} {w : ι → ρ → δ → ℝ}

/-- The first block, absorbed into the reset quantities (level -∞, both sums 0): the new level is the block's
    maximum, and 0 times anything is 0, so only the block's own terms remain. -/
theorem Absorbed.first (t : ι) {lvl' tot' : EReal} {acc' : δ → EReal}
    (hlvl : lvl' = max ⊥ ((Finset.univ : Finset ρ).fold max (⊥ : EReal) (fun r => (x t r : EReal))))
    (htot : tot' = 0 * Ideal.exp (⊥ - lvl') + ∑ r, Ideal.exp ((x t r : EReal) - lvl'))
    (hacc : ∀ d, acc' d = 0 * Ideal.exp (⊥ - lvl') + ∑ r, Ideal.exp ((x t r : EReal) - lvl') * (w t r d : EReal)) :
    Absorbed x w {t} lvl' tot' acc' := by
  obtain ⟨β, hβ⟩ := fold_max_coe (x t)
  rw [hβ, max_eq_right bot_le] at hlvl
  subst hlvl
  refine ⟨β, rfl, ?_, fun d => ?_⟩
  · rw [htot, zero_mul, zero_add, Finset.sum_singleton, coe_sum]
    exact Finset.sum_congr rfl fun r _ => by rw [← EReal.coe_sub, Ideal.exp_coe]
  · rw [hacc d, zero_mul, zero_add, Finset.sum_singleton, coe_sum]
    exact Finset.sum_congr rfl fun r _ => by rw [← EReal.coe_sub, Ideal.exp_coe, ← EReal.coe_mul]

/-- One more block: the level rises to the larger of the old level and the block's maximum, the old sums are rescaled by
    exp (old level - new level), and the block's own terms are added. -/
theorem Absorbed.next {A : Finset ι} {lvl tot : EReal} {acc : δ → EReal} (h : Absorbed x w A lvl tot acc)
    {t : ι} (ht : t ∉ A) {lvl' tot' : EReal} {acc' : δ → EReal}
    (hlvl : lvl' = max lvl ((Finset.univ : Finset ρ).fold max (⊥ : EReal) (fun r => (x t r : EReal))))
    (htot : tot' = tot * Ideal.exp (lvl - lvl') + ∑ r, Ideal.exp ((x t r : EReal) - lvl'))
    (hacc : ∀ d, acc' d = acc d * Ideal.exp (lvl - lvl') + ∑ r, Ideal.exp ((x t r : EReal) - lvl') * (w t r d : EReal)) :
    Absorbed x w (insert t A) lvl' tot' acc' := by
  obtain ⟨μ, rfl, rfl, hacc0⟩ := h
  obtain ⟨β, hβ⟩ := fold_max_coe (x t)
  rw [hβ, ← coe_max] at hlvl
  subst hlvl
  refine ⟨max μ β, rfl, ?_, fun d => ?_⟩
  · have e1 : (∑ r, Ideal.exp ((x t r : EReal) - ((max μ β : ℝ) : EReal)))
        = ((∑ r, Real.exp (x t r - max μ β) : ℝ) : EReal) := by
      rw [coe_sum]
      exact Finset.sum_congr rfl fun r _ => by rw [← EReal.coe_sub, Ideal.exp_coe]
    rw [htot, e1, ← EReal.coe_sub, Ideal.exp_coe, ← EReal.coe_mul, rescale_one, ← EReal.coe_add,
      Finset.sum_insert ht, add_comm]
  · have e1 : (∑ r, Ideal.exp ((x t r : EReal) - ((max μ β : ℝ) : EReal)) * (w t r d : EReal))
        = ((∑ r, Real.exp (x t r - max μ β) * w t r d : ℝ) : EReal) := by
      rw [coe_sum]
      exact Finset.sum_congr rfl fun r _ => by rw [← EReal.coe_sub, Ideal.exp_coe, ← EReal.coe_mul]
    rw [hacc d, hacc0 d, e1, ← EReal.coe_sub, Ideal.exp_coe, ← EReal.coe_mul, rescale, ← EReal.coe_add,
      Finset.sum_insert ht, add_comm]

end State

section Whole

variable {ι ρ δ N : Type u} [DecidableEq ι] [Fintype ι] [Fintype ρ] [Fintype N] [Nonempty N]

/-- Every block absorbed, the weighted sum over the plain sum is the reference's normalise-then-weight sum over the
    whole row, whatever real level the reference subtracts: cut the row into its blocks (the bijection e), drop the
    dependence on the level, and divide. -/
theorem Absorbed.quotient (e : ι × ρ ≃ N) (L : N → ℝ) (V : N → δ → ℝ) {lvl tot : EReal} {acc : δ → EReal}
    (h : Absorbed (fun s r => L (e (s, r))) (fun s r d => V (e (s, r)) d) Finset.univ lvl tot acc) (ν : ℝ) (d : δ) :
    Ideal.div (acc d) tot
      = ∑ n, Ideal.div (Ideal.exp ((L n : EReal) - (ν : EReal))) (0 + ∑ k, Ideal.exp ((L k : EReal) - (ν : EReal))) * (V n d : EReal) := by
  obtain ⟨μ, -, rfl, hacc⟩ := h
  have reidx : ∀ g : N → ℝ, (∑ s : ι, ∑ r : ρ, g (e (s, r))) = ∑ n, g n := fun g => by
    rw [← Fintype.sum_prod_type' (f := fun s r => g (e (s, r)))]
    exact Fintype.sum_equiv e _ _ fun _ => rfl
  have hpos : 0 < ∑ n : N, Real.exp (L n - μ) :=
    Finset.sum_pos (fun k _ => Real.exp_pos _) Finset.univ_nonempty
  rw [normalised_sum L (fun n => V n d) ν, hacc d, reidx (fun n => Real.exp (L n - μ)),
    reidx (fun n => Real.exp (L n - μ) * V n d), Ideal.div_coe hpos.ne', ← EReal.coe_mul,
    average_shift L (fun n => V n d) ν μ]
  congr 1
  field_simp

end Whole

end Cert.Softmax

end
-- ==== Proof.Rows.lean ====
/-
  The real data both programs compute with, once the argument arrays are known to hold real numbers.

  For a query row b and a memory row n the logit is the real inner product of row b of the query with row n of the
  memory; the weight of memory row n in column d is the memory's entry (n, d). The memory's million rows are cut into
  500 consecutive blocks of 2000: row 2000·t + r is position r of block t.
-/
import proofs.«149138_g9818295239233_cont_9to1_m_996_1_alg».proof.Proof.Softmax
import Idealize.ShloMosaic.Lib.ValueIdx

noncomputable section

namespace Cert.Rows

open Idealize.ShloMosaic Idealize.ShloMosaic.ValueIdx

abbrev QShape : Shape := ⟨2, ![64, 64]⟩
abbrev MShape : Shape := ⟨2, ![1000000, 64]⟩

/-- An extended real that is a real number is the coercion of its real part. -/
theorem coe_toReal_of {x : EReal} (h : ∃ r : ℝ, x = (r : EReal)) : x = ((x.toReal : ℝ) : EReal) := by
  obtain ⟨r, rfl⟩ := h; rfl

variable (q : QShape.Idx → EReal) (v : MShape.Idx → EReal)

/-- The logit of query row b against memory row n. -/
def logit (b : Fin 64) (n : Fin 1000000) : ℝ := ∑ k : Fin 64, (q (ix2 b k)).toReal * (v (ix2 n k)).toReal

/-- The weight of memory row n in column d. -/
def weight (n : Fin 1000000) (d : Fin 64) : ℝ := (v (ix2 n d)).toReal

/-- Over real arrays the inner product taken on the extended reals is the real logit. -/
theorem sum_mul_eq_logit (hq : ∀ i, ∃ r : ℝ, q i = (r : EReal)) (hv : ∀ i, ∃ r : ℝ, v i = (r : EReal))
    (b : Fin 64) (n : Fin 1000000) :
    (∑ k : Fin 64, q (ix2 b k) * v (ix2 n k)) = ((logit q v b n : ℝ) : EReal) := by
  unfold logit
  rw [Cert.Softmax.coe_sum]
  refine Finset.sum_congr rfl fun k _ => ?_
  rw [EReal.coe_mul, ← coe_toReal_of (hq _), ← coe_toReal_of (hv _)]

/-- A real memory entry is the coercion of the weight. -/
theorem entry_eq_weight (hv : ∀ i, ∃ r : ℝ, v i = (r : EReal)) (n : Fin 1000000) (d : Fin 64) :
    v (ix2 n d) = ((weight v n d : ℝ) : EReal) := coe_toReal_of (hv _)

/-- Position r of block t is memory row 2000·t + r: a bijection between (block, position) and rows. -/
def rowOf : Fin 500 × Fin 2000 ≃ Fin 1000000 := finProdFinEquiv

theorem rowOf_val (t : Fin 500) (r : Fin 2000) : (rowOf (t, r)).val = t.val * 2000 + r.val := by
  show r.val + 2000 * t.val = t.val * 2000 + r.val
  omega

end Cert.Rows

end
-- ==== Proof.Words.lean ====
/-
  The three float words both programs use, as extended reals: 0x3F800000 is 1, 0xFF800000 is -∞, 0x00000000 is 0.
-/
import Idealize.ShloMosaic.PureOps.Ideal
import Idealize.ShloMosaic.PureOps.Ideal.Laws

noncomputable section

namespace Cert.Words

open Idealize.ShloMosaic

theorem one_f32 : Ideal.ofBits .f32 0x3F800000#32 = 1 := by
  simp [Ideal.ofBits, Ideal.ieee, -EReal.coe_mul]; norm_num

theorem neg_inf_f32 : Ideal.ofBits .f32 0xFF800000#32 = ⊥ := by
  simp [Ideal.ofBits, Ideal.ieee]

theorem zero_f32 : Ideal.ofBits .f32 0x00000000#32 = 0 := Ideal.ofBits_zero_f32

end Cert.Words

end
-- ==== Proof.RefValue.lean ====
/-
  What the reference computes, entry by entry, over real arrays.

  At entry (b, d) the reference's result is the sum over the memory rows n of
      exp (logit b n - level b) / (0 + the sum over k of exp (logit b k - level b))  times  the weight of row n in column d,
  where level b, the row's largest logit taken from -∞, is a real number (the row is not empty). The factor 1 the
  reference multiplies the logits by disappears.
-/
import proofs.«149138_g9818295239233_cont_9to1_m_996_1_alg».proof.Proof.Gen.ReferenceIdeal.Read
import proofs.«149138_g9818295239233_cont_9to1_m_996_1_alg».proof.Proof.Rows
import proofs.«149138_g9818295239233_cont_9to1_m_996_1_alg».proof.Proof.Words
import Idealize.ShloMosaic.PureOps.Reduce

noncomputable section

namespace Cert.RefValue

open Cert.ReferenceIdeal Cert.ReferenceIdeal.Read Idealize.ShloMosaic Idealize.ShloMosaic.ValueIdx Cert.Rows Cert.Words

variable (q : (⟨S64x64, .f32⟩ : BufTy).Contents (Elt Ideal)) (v : (⟨S1000000x64, .f32⟩ : BufTy).Contents (Elt Ideal))

/-- The scaled logits are the real logits: the inner product over the transposed memory, times 1. -/
theorem scaled_logit (hq : ∀ i, ∃ r : ℝ, q i = (r : EReal)) (hv : ∀ i, ∃ r : ℝ, v i = (r : EReal))
    (b : Fin 64) (n : Fin 1000000) :
    val_main_v3 (F := Ideal) q v (ix2 b n) = ((logit q v b n : ℝ) : EReal) := by
  have el : ∀ k, lidx_main_v1 (ix2 b n) k = ix2 b k := fun k =>
    funext fun a => Fin.ext (by match a with | ⟨0, _⟩ => rfl | ⟨1, _⟩ => rfl)
  have er : ∀ k, idx_main_v0 (ridx_main_v1 (ix2 b n) k) = ix2 n k := fun k =>
    funext fun a => Fin.ext (by match a with | ⟨0, _⟩ => rfl | ⟨1, _⟩ => rfl)
  rw [val_main_v3_apply, val_main_v2_apply, val_main_cst_apply, val_main_v1_apply]
  simp only [val_main_v0_apply, el, er]
  rw [sum_mul_eq_logit q v hq hv]
  simp only [Ideal.mulf_def, Ideal.ofBits_def, one_f32, one_mul]

/-- The level the reference subtracts in row b is a real number. -/
theorem level_real (hq : ∀ i, ∃ r : ℝ, q i = (r : EReal)) (hv : ∀ i, ∃ r : ℝ, v i = (r : EReal)) (b : Fin 64) :
    ∃ ν : ℝ, val_main_v6 (F := Ideal) q v (ix1 b) = (ν : EReal) := by
  obtain ⟨β, hβ⟩ := Cert.Softmax.fold_max_coe (fun n : Fin 1000000 => logit q v b n)
  refine ⟨β, ?_⟩
  rw [val_main_v6_apply, val_main_v5_apply, val_main_cst_1_apply]
  unfold val_main_v4
  rw [Host.reduce_eq_fold_single FloatOps.maximumf _ _ _ (by decide) _ (ix1 b)]
  have hf : (val_main_v3 (F := Ideal) q v ∘ (by decide : S64x1000000.Reduces [1] S64).lift (ix1 b))
      = fun n : Fin 1000000 => ((logit q v b n : ℝ) : EReal) := funext fun n => by
    show val_main_v3 (F := Ideal) q v _ = _
    rw [← scaled_logit q v hq hv b n]
    exact congrArg _ (funext fun a => Fin.ext (by match a with | ⟨0, _⟩ => rfl | ⟨1, _⟩ => rfl))
  rw [hf]
  simp only [val_main_cst_0_apply, Ideal.maximumf_def, Ideal.ofBits_def, neg_inf_f32]
  exact (congrArg (max (⊥ : EReal)) hβ).trans (max_eq_right bot_le)

/-- The exponential the reference takes at (b, n), over the row's level ν. -/
theorem exp_at (hq : ∀ i, ∃ r : ℝ, q i = (r : EReal)) (hv : ∀ i, ∃ r : ℝ, v i = (r : EReal)) (b : Fin 64)
    (ν : ℝ) (hν : val_main_v6 (F := Ideal) q v (ix1 b) = (ν : EReal)) (n : Fin 1000000) :
    val_main_v10 (F := Ideal) q v (ix2 b n) = Ideal.exp (((logit q v b n : ℝ) : EReal) - (ν : EReal)) := by
  have e8 : idx_main_v7 (idx_main_v8 (ix2 b n)) = ix1 b :=
    funext fun a => Fin.ext (by match a with | ⟨0, _⟩ => rfl)
  rw [val_main_v10_apply, val_main_v9_apply, val_main_v8_apply, val_main_v7_apply, e8, hν, scaled_logit q v hq hv]
  simp only [Ideal.hostUnary_exp_def, Ideal.subf_def]

/-- The reference's result at (b, d). -/
theorem result_at (hq : ∀ i, ∃ r : ℝ, q i = (r : EReal)) (hv : ∀ i, ∃ r : ℝ, v i = (r : EReal)) (b d : Fin 64)
    (ν : ℝ) (hν : val_main_v6 (F := Ideal) q v (ix1 b) = (ν : EReal)) :
    val_main_v15 (F := Ideal) q v (ix2 b d)
      = ∑ n : Fin 1000000, Ideal.div (Ideal.exp (((logit q v b n : ℝ) : EReal) - (ν : EReal)))
          (0 + ∑ k : Fin 1000000, Ideal.exp (((logit q v b k : ℝ) : EReal) - (ν : EReal))) * ((weight v n d : ℝ) : EReal) := by
  have e15l : ∀ n, lidx_main_v15 (ix2 b d) n = ix2 b n := fun n =>
    funext fun a => Fin.ext (by match a with | ⟨0, _⟩ => rfl | ⟨1, _⟩ => rfl)
  have e15r : ∀ n, ridx_main_v15 (ix2 b d) n = ix2 n d := fun n =>
    funext fun a => Fin.ext (by match a with | ⟨0, _⟩ => rfl | ⟨1, _⟩ => rfl)
  have e13 : ∀ n, idx_main_v12 (idx_main_v13 (ix2 b n)) = ix1 b := fun n =>
    funext fun a => Fin.ext (by match a with | ⟨0, _⟩ => rfl)
  have e11 : ∀ k, idx_main_v11 (ix1 b) k = ix2 b k := fun k =>
    funext fun a => Fin.ext (by match a with | ⟨0, _⟩ => rfl | ⟨1, _⟩ => rfl)
  have htot : val_main_v11 (F := Ideal) q v (ix1 b)
      = 0 + ∑ k : Fin 1000000, Ideal.exp (((logit q v b k : ℝ) : EReal) - (ν : EReal)) := by
    rw [val_main_v11_apply, val_main_cst_2_apply]
    simp only [e11, exp_at q v hq hv b ν hν, Ideal.ofBits_def, zero_f32]
  rw [val_main_v15_apply]
  refine Finset.sum_congr rfl fun n _ => ?_
  rw [e15l, e15r, val_main_v14_apply, val_main_v13_apply, val_main_v12_apply, e13, htot, exp_at q v hq hv b ν hν,
    entry_eq_weight v hv]
  simp only [Ideal.hostDivf_def]

end Cert.RefValue

end
-- ==== Proof.Pieces.lean ====
/-
  What one grid point leaves behind, as the body's arithmetic.

  The body keeps three scratch arrays between points: the weighted sums (scratch 0), the level (scratch 1) and the
  sum (scratch 2). At the first point it resets them (sums 0, level -∞) and then takes the step; at every later point it
  takes the step from what the point before left; at the last point it also stores the output block, the weighted sums
  divided by the sum. Each lemma names what a case leaves in one array as the body's pure term of the point's two input
  blocks and, past the first point, of the three scratch arrays as the point before left them.
-/
import proofs.«149138_g9818295239233_cont_9to1_m_996_1_alg».proof.Proof.Gen.KernelIdeal.Frame
import Idealize.ShloMosaic.Lib.Pipeline.Value

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- Every store and load of the body starts at the origin of its array. -/
theorem off_zero : (![0, 0] : Fin 2 → Nat) = fun _ => 0 :=
  funext fun a => by match a with | ⟨0, _⟩ => rfl | ⟨1, _⟩ => rfl

/-- Case A, scratch 0: the weighted sums after the first block: the step applied to the reset values (level -∞, sums 0). -/
theorem left_A_0 (c : Dev nD) (i : grid0.Coords) (arg1 : Memref sig .tc .vmem S64x64 .f32) (harg1 : arg1.IsWhole) (arg2 : Memref sig .tc .vmem S2000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S64x1 .f32) (harg5 : arg5.IsWhole) (arg6 : Memref sig .tc .vmem S64x1 .f32) (harg6 : arg6.IsWhole) (hc0 : cond0_0 i) (hc1 : ¬cond0_1 i)
    (x0 : Vec F S64x64 .f32) (x1 : Vec F S2000x64 .f32) :
    sout0_A_0 (F := F) c i arg1 harg1 arg2 harg2 arg3 harg3 arg4 harg4 arg5 harg5 arg6 harg6 hc0 hc1 x0 x1 = k0_pay11 x0 x1 k0_pay3 k0_pay2 := by
  unfold sout0_A_0
  rw [View.read_writes_eq_canon _ _ _ (scover0_A_0 c i arg1 harg1 arg2 harg2 arg3 harg3 arg4 harg4 arg5 harg5 arg6 harg6 hc0 hc1 x0 x1)]
  unfold kernelRun0_A
  dsimp only
  sl_unfold_words
  rw [View.canon_cons_unit_zero (S := S64x64) off_zero]
  simp only [View.readAt_eq_ld, harg1.read_unread, harg2.read_unread, harg4.read_unread, harg5.read_unread, harg6.read_unread,
    View.ld_unit_zero (S := S64x64) off_zero, View.ld_unit_zero (S := S2000x64) off_zero, View.ld_unit_zero (S := S64x1) off_zero,
    View.readCov_unit_zero (S := S64x1) _ off_zero, View.readCov_unit_zero (S := S64x64) _ off_zero]

/-- Case A, scratch 1: the level after the first block: the step applied to the reset level -∞. -/
theorem left_A_1 (c : Dev nD) (i : grid0.Coords) (arg1 : Memref sig .tc .vmem S64x64 .f32) (harg1 : arg1.IsWhole) (arg2 : Memref sig .tc .vmem S2000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S64x1 .f32) (harg5 : arg5.IsWhole) (arg6 : Memref sig .tc .vmem S64x1 .f32) (harg6 : arg6.IsWhole) (hc0 : cond0_0 i) (hc1 : ¬cond0_1 i)
    (x0 : Vec F S64x64 .f32) (x1 : Vec F S2000x64 .f32) :
    sout0_A_1 (F := F) c i arg1 harg1 arg2 harg2 arg3 harg3 arg4 harg4 arg5 harg5 arg6 harg6 hc0 hc1 x0 x1 = k0_pay9 x0 x1 k0_pay3 := by
  unfold sout0_A_1
  rw [View.read_writes_eq_canon _ _ _ (scover0_A_1 c i arg1 harg1 arg2 harg2 arg3 harg3 arg4 harg4 arg5 harg5 arg6 harg6 hc0 hc1 x0 x1)]
  unfold kernelRun0_A
  dsimp only
  sl_unfold_words
  rw [View.canon_cons_unit_zero (S := S64x1) off_zero]
  simp only [View.readAt_eq_ld, harg1.read_unread, harg2.read_unread, harg4.read_unread, harg5.read_unread, harg6.read_unread,
    View.ld_unit_zero (S := S64x64) off_zero, View.ld_unit_zero (S := S2000x64) off_zero, View.ld_unit_zero (S := S64x1) off_zero,
    View.readCov_unit_zero (S := S64x1) _ off_zero, View.readCov_unit_zero (S := S64x64) _ off_zero]

/-- Case A, scratch 2: the sum after the first block: the step applied to the reset values. -/
theorem left_A_2 (c : Dev nD) (i : grid0.Coords) (arg1 : Memref sig .tc .vmem S64x64 .f32) (harg1 : arg1.IsWhole) (arg2 : Memref sig .tc .vmem S2000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S64x1 .f32) (harg5 : arg5.IsWhole) (arg6 : Memref sig .tc .vmem S64x1 .f32) (harg6 : arg6.IsWhole) (hc0 : cond0_0 i) (hc1 : ¬cond0_1 i)
    (x0 : Vec F S64x64 .f32) (x1 : Vec F S2000x64 .f32) :
    sout0_A_2 (F := F) c i arg1 harg1 arg2 harg2 arg3 harg3 arg4 harg4 arg5 harg5 arg6 harg6 hc0 hc1 x0 x1 = k0_pay10 x0 x1 k0_pay3 k0_pay4 := by
  unfold sout0_A_2
  rw [View.read_writes_eq_canon _ _ _ (scover0_A_2 c i arg1 harg1 arg2 harg2 arg3 harg3 arg4 harg4 arg5 harg5 arg6 harg6 hc0 hc1 x0 x1)]
  unfold kernelRun0_A
  dsimp only
  sl_unfold_words
  rw [View.canon_cons_unit_zero (S := S64x1) off_zero]
  simp only [View.readAt_eq_ld, harg1.read_unread, harg2.read_unread, harg4.read_unread, harg5.read_unread, harg6.read_unread,
    View.ld_unit_zero (S := S64x64) off_zero, View.ld_unit_zero (S := S2000x64) off_zero, View.ld_unit_zero (S := S64x1) off_zero,
    View.readCov_unit_zero (S := S64x1) _ off_zero, View.readCov_unit_zero (S := S64x64) _ off_zero]

/-- Case B, scratch 0: the weighted sums after a middle block: the step applied to what the point before left. -/
theorem left_B_0 (c : Dev nD) (i : grid0.Coords) (arg1 : Memref sig .tc .vmem S64x64 .f32) (harg1 : arg1.IsWhole) (arg2 : Memref sig .tc .vmem S2000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S64x1 .f32) (harg5 : arg5.IsWhole) (arg6 : Memref sig .tc .vmem S64x1 .f32) (harg6 : arg6.IsWhole) (hc0 : ¬cond0_0 i) (hc1 : ¬cond0_1 i)
    (x0 : Vec F S64x64 .f32) (x1 : Vec F S2000x64 .f32) (s0 : Vec F S64x64 .f32) (s1 : Vec F S64x1 .f32) (s2 : Vec F S64x1 .f32) :
    sout0_B_0 (F := F) c i arg1 harg1 arg2 harg2 arg3 harg3 arg4 harg4 arg5 harg5 arg6 harg6 hc0 hc1 x0 x1 s0 s1 s2 = k0_pay11 x0 x1 s1 s0 := by
  unfold sout0_B_0
  rw [View.read_writes_eq_canon _ _ _ (scover0_B_0 c i arg1 harg1 arg2 harg2 arg3 harg3 arg4 harg4 arg5 harg5 arg6 harg6 hc0 hc1 x0 x1 s0 s1 s2)]
  unfold kernelRun0_B
  dsimp only
  sl_unfold_words
  rw [View.canon_unit_zero (S := S64x64) off_zero]
  simp only [View.readAt_eq_ld, harg1.read_unread, harg2.read_unread, harg4.read_unread, harg5.read_unread, harg6.read_unread,
    View.ld_unit_zero (S := S64x64) off_zero, View.ld_unit_zero (S := S2000x64) off_zero, View.ld_unit_zero (S := S64x1) off_zero,
    View.readCov_unit_zero (S := S64x1) _ off_zero, View.readCov_unit_zero (S := S64x64) _ off_zero]

/-- Case B, scratch 1: the level after a middle block. -/
theorem left_B_1 (c : Dev nD) (i : grid0.Coords) (arg1 : Memref sig .tc .vmem S64x64 .f32) (harg1 : arg1.IsWhole) (arg2 : Memref sig .tc .vmem S2000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S64x1 .f32) (harg5 : arg5.IsWhole) (arg6 : Memref sig .tc .vmem S64x1 .f32) (harg6 : arg6.IsWhole) (hc0 : ¬cond0_0 i) (hc1 : ¬cond0_1 i)
    (x0 : Vec F S64x64 .f32) (x1 : Vec F S2000x64 .f32) (s0 : Vec F S64x64 .f32) (s1 : Vec F S64x1 .f32) (s2 : Vec F S64x1 .f32) :
    sout0_B_1 (F := F) c i arg1 harg1 arg2 harg2 arg3 harg3 arg4 harg4 arg5 harg5 arg6 harg6 hc0 hc1 x0 x1 s0 s1 s2 = k0_pay9 x0 x1 s1 := by
  unfold sout0_B_1
  rw [View.read_writes_eq_canon _ _ _ (scover0_B_1 c i arg1 harg1 arg2 harg2 arg3 harg3 arg4 harg4 arg5 harg5 arg6 harg6 hc0 hc1 x0 x1 s0 s1 s2)]
  unfold kernelRun0_B
  dsimp only
  sl_unfold_words
  rw [View.canon_unit_zero (S := S64x1) off_zero]
  simp only [View.readAt_eq_ld, harg1.read_unread, harg2.read_unread, harg4.read_unread, harg5.read_unread, harg6.read_unread,
    View.ld_unit_zero (S := S64x64) off_zero, View.ld_unit_zero (S := S2000x64) off_zero, View.ld_unit_zero (S := S64x1) off_zero,
    View.readCov_unit_zero (S := S64x1) _ off_zero, View.readCov_unit_zero (S := S64x64) _ off_zero]

/-- Case B, scratch 2: the sum after a middle block. -/
theorem left_B_2 (c : Dev nD) (i : grid0.Coords) (arg1 : Memref sig .tc .vmem S64x64 .f32) (harg1 : arg1.IsWhole) (arg2 : Memref sig .tc .vmem S2000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S64x1 .f32) (harg5 : arg5.IsWhole) (arg6 : Memref sig .tc .vmem S64x1 .f32) (harg6 : arg6.IsWhole) (hc0 : ¬cond0_0 i) (hc1 : ¬cond0_1 i)
    (x0 : Vec F S64x64 .f32) (x1 : Vec F S2000x64 .f32) (s0 : Vec F S64x64 .f32) (s1 : Vec F S64x1 .f32) (s2 : Vec F S64x1 .f32) :
    sout0_B_2 (F := F) c i arg1 harg1 arg2 harg2 arg3 harg3 arg4 harg4 arg5 harg5 arg6 harg6 hc0 hc1 x0 x1 s0 s1 s2 = k0_pay10 x0 x1 s1 s2 := by
  unfold sout0_B_2
  rw [View.read_writes_eq_canon _ _ _ (scover0_B_2 c i arg1 harg1 arg2 harg2 arg3 harg3 arg4 harg4 arg5 harg5 arg6 harg6 hc0 hc1 x0 x1 s0 s1 s2)]
  unfold kernelRun0_B
  dsimp only
  sl_unfold_words
  rw [View.canon_unit_zero (S := S64x1) off_zero]
  simp only [View.readAt_eq_ld, harg1.read_unread, harg2.read_unread, harg4.read_unread, harg5.read_unread, harg6.read_unread,
    View.ld_unit_zero (S := S64x64) off_zero, View.ld_unit_zero (S := S2000x64) off_zero, View.ld_unit_zero (S := S64x1) off_zero,
    View.readCov_unit_zero (S := S64x1) _ off_zero, View.readCov_unit_zero (S := S64x64) _ off_zero]

/-- Case C, scratch 0: the weighted sums after the last block. -/
theorem left_C_0 (c : Dev nD) (i : grid0.Coords) (arg1 : Memref sig .tc .vmem S64x64 .f32) (harg1 : arg1.IsWhole) (arg2 : Memref sig .tc .vmem S2000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S64x1 .f32) (harg5 : arg5.IsWhole) (arg6 : Memref sig .tc .vmem S64x1 .f32) (harg6 : arg6.IsWhole) (hc0 : ¬cond0_0 i) (hc1 : cond0_1 i)
    (x0 : Vec F S64x64 .f32) (x1 : Vec F S2000x64 .f32) (s0 : Vec F S64x64 .f32) (s1 : Vec F S64x1 .f32) (s2 : Vec F S64x1 .f32) :
    sout0_C_0 (F := F) c i arg1 harg1 arg2 harg2 arg3 harg3 arg4 harg4 arg5 harg5 arg6 harg6 hc0 hc1 x0 x1 s0 s1 s2 = k0_pay11 x0 x1 s1 s0 := by
  unfold sout0_C_0
  rw [View.read_writes_eq_canon _ _ _ (scover0_C_0 c i arg1 harg1 arg2 harg2 arg3 harg3 arg4 harg4 arg5 harg5 arg6 harg6 hc0 hc1 x0 x1 s0 s1 s2)]
  unfold kernelRun0_C
  dsimp only
  sl_unfold_words
  rw [View.canon_unit_zero (S := S64x64) off_zero]
  simp only [View.readAt_eq_ld, harg1.read_unread, harg2.read_unread, harg4.read_unread, harg5.read_unread, harg6.read_unread,
    View.ld_unit_zero (S := S64x64) off_zero, View.ld_unit_zero (S := S2000x64) off_zero, View.ld_unit_zero (S := S64x1) off_zero,
    View.readCov_unit_zero (S := S64x1) _ off_zero, View.readCov_unit_zero (S := S64x64) _ off_zero]

/-- Case C, scratch 1: the level after the last block. -/
theorem left_C_1 (c : Dev nD) (i : grid0.Coords) (arg1 : Memref sig .tc .vmem S64x64 .f32) (harg1 : arg1.IsWhole) (arg2 : Memref sig .tc .vmem S2000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S64x1 .f32) (harg5 : arg5.IsWhole) (arg6 : Memref sig .tc .vmem S64x1 .f32) (harg6 : arg6.IsWhole) (hc0 : ¬cond0_0 i) (hc1 : cond0_1 i)
    (x0 : Vec F S64x64 .f32) (x1 : Vec F S2000x64 .f32) (s0 : Vec F S64x64 .f32) (s1 : Vec F S64x1 .f32) (s2 : Vec F S64x1 .f32) :
    sout0_C_1 (F := F) c i arg1 harg1 arg2 harg2 arg3 harg3 arg4 harg4 arg5 harg5 arg6 harg6 hc0 hc1 x0 x1 s0 s1 s2 = k0_pay9 x0 x1 s1 := by
  unfold sout0_C_1
  rw [View.read_writes_eq_canon _ _ _ (scover0_C_1 c i arg1 harg1 arg2 harg2 arg3 harg3 arg4 harg4 arg5 harg5 arg6 harg6 hc0 hc1 x0 x1 s0 s1 s2)]
  unfold kernelRun0_C
  dsimp only
  sl_unfold_words
  rw [View.canon_unit_zero (S := S64x1) off_zero]
  simp only [View.readAt_eq_ld, harg1.read_unread, harg2.read_unread, harg4.read_unread, harg5.read_unread, harg6.read_unread,
    View.ld_unit_zero (S := S64x64) off_zero, View.ld_unit_zero (S := S2000x64) off_zero, View.ld_unit_zero (S := S64x1) off_zero,
    View.readCov_unit_zero (S := S64x1) _ off_zero, View.readCov_unit_zero (S := S64x64) _ off_zero]

/-- Case C, scratch 2: the sum after the last block. -/
theorem left_C_2 (c : Dev nD) (i : grid0.Coords) (arg1 : Memref sig .tc .vmem S64x64 .f32) (harg1 : arg1.IsWhole) (arg2 : Memref sig .tc .vmem S2000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S64x1 .f32) (harg5 : arg5.IsWhole) (arg6 : Memref sig .tc .vmem S64x1 .f32) (harg6 : arg6.IsWhole) (hc0 : ¬cond0_0 i) (hc1 : cond0_1 i)
    (x0 : Vec F S64x64 .f32) (x1 : Vec F S2000x64 .f32) (s0 : Vec F S64x64 .f32) (s1 : Vec F S64x1 .f32) (s2 : Vec F S64x1 .f32) :
    sout0_C_2 (F := F) c i arg1 harg1 arg2 harg2 arg3 harg3 arg4 harg4 arg5 harg5 arg6 harg6 hc0 hc1 x0 x1 s0 s1 s2 = k0_pay10 x0 x1 s1 s2 := by
  unfold sout0_C_2
  rw [View.read_writes_eq_canon _ _ _ (scover0_C_2 c i arg1 harg1 arg2 harg2 arg3 harg3 arg4 harg4 arg5 harg5 arg6 harg6 hc0 hc1 x0 x1 s0 s1 s2)]
  unfold kernelRun0_C
  dsimp only
  sl_unfold_words
  rw [View.canon_unit_zero (S := S64x1) off_zero]
  simp only [View.readAt_eq_ld, harg1.read_unread, harg2.read_unread, harg4.read_unread, harg5.read_unread, harg6.read_unread,
    View.ld_unit_zero (S := S64x64) off_zero, View.ld_unit_zero (S := S2000x64) off_zero, View.ld_unit_zero (S := S64x1) off_zero,
    View.readCov_unit_zero (S := S64x1) _ off_zero, View.readCov_unit_zero (S := S64x64) _ off_zero]

/-- Case C, the output block: the last block's weighted sums divided by its sum, each read back after its store. -/
theorem out_C (c : Dev nD) (i : grid0.Coords) (arg1 : Memref sig .tc .vmem S64x64 .f32) (harg1 : arg1.IsWhole) (arg2 : Memref sig .tc .vmem S2000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S64x1 .f32) (harg5 : arg5.IsWhole) (arg6 : Memref sig .tc .vmem S64x1 .f32) (harg6 : arg6.IsWhole) (hc0 : ¬cond0_0 i) (hc1 : cond0_1 i)
    (x0 : Vec F S64x64 .f32) (x1 : Vec F S2000x64 .f32) (s0 : Vec F S64x64 .f32) (s1 : Vec F S64x1 .f32) (s2 : Vec F S64x1 .f32) :
    out0_C_2 (F := F) c i arg1 harg1 arg2 harg2 arg3 harg3 arg4 harg4 arg5 harg5 arg6 harg6 hc0 hc1 x0 x1 s0 s1 s2 = k0_pay1 (k0_pay11 x0 x1 s1 s0) (k0_pay10 x0 x1 s1 s2) := by
  unfold out0_C_2
  rw [View.read_writes_eq_canon _ _ _ (cover0_C_2 c i arg1 harg1 arg2 harg2 arg3 harg3 arg4 harg4 arg5 harg5 arg6 harg6 hc0 hc1 x0 x1 s0 s1 s2)]
  unfold kernelRun0_C
  dsimp only
  sl_unfold_words
  rw [View.canon_unit_zero (S := S64x64) off_zero]
  simp only [View.readAt_eq_ld, harg1.read_unread, harg2.read_unread, harg4.read_unread, harg5.read_unread, harg6.read_unread,
    View.ld_unit_zero (S := S64x64) off_zero, View.ld_unit_zero (S := S2000x64) off_zero, View.ld_unit_zero (S := S64x1) off_zero,
    View.readCov_unit_zero (S := S64x1) _ off_zero, View.readCov_unit_zero (S := S64x64) _ off_zero]

end Cert.KernelIdeal.Pieces

end
-- ==== Proof.Payloads.lean ====
/-
  The body's arithmetic, read at one entry, on the extended reals.

  With Q the query block, B the point's memory block, and lvl, tot, acc the three scratch arrays as the body loads them:
    the block's logits      logits (b, r) = the sum over k of Q (b, k) · B (r, k)
    the new level           lvl' (b) = max (lvl b) (the largest of logits (b, ·), from -∞)
    the rescaling factor    exp (lvl b - lvl' b)
    the block's exponentials exp (logits (b, r) - lvl' b)
    the new sum             tot b · factor + the sum over r of the exponentials
    the new weighted sums   acc (b, d) · factor + the sum over r of exponential (b, r) · B (r, d)
    the output              new weighted sum (b, d) / new sum (b)
  The three reset values are 0, -∞ and 0 at every entry.
-/
import proofs.«149138_g9818295239233_cont_9to1_m_996_1_alg».proof.Proof.Gen.KernelIdeal.Skeleton
import proofs.«149138_g9818295239233_cont_9to1_m_996_1_alg».proof.Proof.Words
import Idealize.ShloMosaic.Lib.ValueIdx
import Idealize.ShloMosaic.Lib.Pipeline.Value
import Idealize.ShloMosaic.PureOps.Ideal.Laws

noncomputable section

namespace Cert.KernelIdeal.Payloads

open Cert.KernelIdeal Cert.KernelIdeal.Gen Idealize.ShloMosaic Idealize.ShloMosaic.ValueIdx Cert.Words

/-! ## Layout and reductions at an entry -/

/-- A vector of 64 viewed as a column: entry (b, 0) of the column is entry b. -/
theorem column_cast (x : S64.Idx → EReal) (h : S64.ShapeCasts S64x1) (b : Fin 64) :
    shapeCast S64x1 x h (ix2 b (0 : Fin 1)) = x (ix1 b) :=
  shapeCast_apply x h (ix2 b (0 : Fin 1)) (ix1 b) (by
    rw [Shape.rowMajor_val_one, Shape.rowMajor_val_two]
    show b.val = b.val * 1 + 0
    omega)

/-- A column spread along rows of length n: entry (b, r) is the column's entry (b, 0). -/
theorem column_spread {n : ℕ} (x : S64x1.Idx → EReal) (h : S64x1.Broadcasts ⟨2, ![64, n]⟩) (b : Fin 64) (r : Fin n) :
    broadcastTo ⟨2, ![64, n]⟩ x h (ix2 b r) = x (ix2 b (0 : Fin 1)) :=
  broadcastTo_apply x h (ix2 b r) (ix2 b (0 : Fin 1)) (fun a => by
    match a with
    | ⟨0, _⟩ => show b.val = if (64 : ℕ) = 1 then 0 else b.val; rw [if_neg (by decide)]
    | ⟨1, _⟩ => show 0 = if (1 : ℕ) = 1 then 0 else r.val; rw [if_pos rfl])

/-- A row's largest entry, from -∞. -/
theorem row_max (src : FVec Ideal S64x2000 .f32) (h : S64x2000.Reduces [1] S64)
    (hacc : (0xFF800000#32 : BitVec 32) = 0xFF800000#32) (b : Fin 64) :
    multiReduction .maximumf [1] S64 src 0xFF800000#32 h (.inl rfl) hacc (ix1 b)
      = (Finset.univ : Finset (Fin 2000)).fold max (⊥ : EReal) (fun r => src (ix2 b r)) := by
  refine (Ideal.multiReduction_maximumf_single src _ h (.inl rfl) hacc (ix1 b)).trans ?_
  have e : (src ∘ h.lift (ix1 b)) = fun r : Fin 2000 => src (ix2 b r) := funext fun r =>
    congrArg src (funext fun a => Fin.ext (by match a with | ⟨0, _⟩ => rfl | ⟨1, _⟩ => rfl))
  exact congrArg₂ (fun (z : EReal) (f : Fin 2000 → EReal) => (Finset.univ : Finset (Fin 2000)).fold max z f) neg_inf_f32 e

/-- A row's sum. -/
theorem row_sum (src : FVec Ideal S64x2000 .f32) (h : S64x2000.Reduces [1] S64)
    (hacc : (0x00000000#32 : BitVec 32) = 0x00000000#32) (b : Fin 64) :
    multiReduction .add [1] S64 src 0x00000000#32 h (.inl rfl) hacc (ix1 b) = ∑ r : Fin 2000, src (ix2 b r) := by
  refine (Ideal.multiReduction_add_single src _ h (.inl rfl) hacc (ix1 b)).trans ?_
  exact Finset.sum_congr rfl fun r _ =>
    congrArg src (funext fun a => Fin.ext (by match a with | ⟨0, _⟩ => rfl | ⟨1, _⟩ => rfl))

/-! ## The two products at an entry -/

theorem lhs_logits_0 (i : S64x2000.Idx) (q : dot_S64x64_S2000x64_S64x2000_1_1_0_0_n_n.contr.Idx) :
    (dot_S64x64_S2000x64_S64x2000_1_1_0_0_n_n.lhsIdx i q 0).val = (i 0).val := by
  unfold DotDims.lhsIdx
  rw [dif_neg (show ¬(0 : Fin S64x64.rank) ∈ dot_S64x64_S2000x64_S64x2000_1_1_0_0_n_n.lhsBatch by decide), dif_pos (show (0 : Fin S64x64.rank) ∈ dot_S64x64_S2000x64_S64x2000_1_1_0_0_n_n.lhsNonContracting by decide)]
  rfl
theorem lhs_logits_1 (i : S64x2000.Idx) (q : dot_S64x64_S2000x64_S64x2000_1_1_0_0_n_n.contr.Idx) :
    (dot_S64x64_S2000x64_S64x2000_1_1_0_0_n_n.lhsIdx i q 1).val = (q ⟨0, by decide⟩).val :=
  dot_S64x64_S2000x64_S64x2000_1_1_0_0_n_n.lhsIdx_val_of_single rfl i q
theorem rhs_logits_0 (i : S64x2000.Idx) (q : dot_S64x64_S2000x64_S64x2000_1_1_0_0_n_n.contr.Idx) :
    (dot_S64x64_S2000x64_S64x2000_1_1_0_0_n_n.rhsIdx i q 0).val = (i 1).val := by
  unfold DotDims.rhsIdx
  rw [dif_neg (show ¬(0 : Fin S2000x64.rank) ∈ dot_S64x64_S2000x64_S64x2000_1_1_0_0_n_n.rhsBatch by decide), dif_pos (show (0 : Fin S2000x64.rank) ∈ dot_S64x64_S2000x64_S64x2000_1_1_0_0_n_n.rhsNonContracting by decide)]
  rfl
theorem rhs_logits_1 (i : S64x2000.Idx) (q : dot_S64x64_S2000x64_S64x2000_1_1_0_0_n_n.contr.Idx) :
    (dot_S64x64_S2000x64_S64x2000_1_1_0_0_n_n.rhsIdx i q 1).val = (q ⟨0, by decide⟩).val :=
  dot_S64x64_S2000x64_S64x2000_1_1_0_0_n_n.rhsIdx_val_of_single rfl i q

/-- The block's logits: query row b against block row r. -/
theorem logits_at (Q : FVec Ideal S64x64 .f32) (B : FVec Ideal S2000x64 .f32) (b : Fin 64) (r : Fin 2000) :
    k0_pay5 (F := Ideal) Q B (ix2 b r) = ∑ k : Fin 64, Q (ix2 b k) * B (ix2 r k) := by
  unfold k0_pay5
  simp only [matmul]
  rw [Ideal.matmul_constant_zero_apply, ← Equiv.sum_comp (ValueIdx.contrEquiv1 dot_S64x64_S2000x64_S64x2000_1_1_0_0_n_n 64 rfl rfl).symm]
  refine Finset.sum_congr rfl fun k _ => ?_
  have hk := ValueIdx.contrEquiv1_symm_val dot_S64x64_S2000x64_S64x2000_1_1_0_0_n_n 64 rfl rfl k
  have el : dot_S64x64_S2000x64_S64x2000_1_1_0_0_n_n.lhsIdx (ix2 b r) ((ValueIdx.contrEquiv1 dot_S64x64_S2000x64_S64x2000_1_1_0_0_n_n 64 rfl rfl).symm k) = ix2 b k := funext fun a => Fin.ext (by
    match a with
    | ⟨0, _⟩ => exact lhs_logits_0 _ _
    | ⟨1, _⟩ => exact (lhs_logits_1 _ _).trans hk)
  have er : dot_S64x64_S2000x64_S64x2000_1_1_0_0_n_n.rhsIdx (ix2 b r) ((ValueIdx.contrEquiv1 dot_S64x64_S2000x64_S64x2000_1_1_0_0_n_n 64 rfl rfl).symm k) = ix2 r k := funext fun a => Fin.ext (by
    match a with
    | ⟨0, _⟩ => exact rhs_logits_0 _ _
    | ⟨1, _⟩ => exact (rhs_logits_1 _ _).trans hk)
  rw [el, er]

theorem lhs_weighted_0 (i : S64x64.Idx) (q : dot_S64x2000_S2000x64_S64x64_1_0_0_1_n_n.contr.Idx) :
    (dot_S64x2000_S2000x64_S64x64_1_0_0_1_n_n.lhsIdx i q 0).val = (i 0).val := by
  unfold DotDims.lhsIdx
  rw [dif_neg (show ¬(0 : Fin S64x2000.rank) ∈ dot_S64x2000_S2000x64_S64x64_1_0_0_1_n_n.lhsBatch by decide), dif_pos (show (0 : Fin S64x2000.rank) ∈ dot_S64x2000_S2000x64_S64x64_1_0_0_1_n_n.lhsNonContracting by decide)]
  rfl
theorem lhs_weighted_1 (i : S64x64.Idx) (q : dot_S64x2000_S2000x64_S64x64_1_0_0_1_n_n.contr.Idx) :
    (dot_S64x2000_S2000x64_S64x64_1_0_0_1_n_n.lhsIdx i q 1).val = (q ⟨0, by decide⟩).val :=
  dot_S64x2000_S2000x64_S64x64_1_0_0_1_n_n.lhsIdx_val_of_single rfl i q
theorem rhs_weighted_0 (i : S64x64.Idx) (q : dot_S64x2000_S2000x64_S64x64_1_0_0_1_n_n.contr.Idx) :
    (dot_S64x2000_S2000x64_S64x64_1_0_0_1_n_n.rhsIdx i q 0).val = (q ⟨0, by decide⟩).val :=
  dot_S64x2000_S2000x64_S64x64_1_0_0_1_n_n.rhsIdx_val_of_single rfl i q
theorem rhs_weighted_1 (i : S64x64.Idx) (q : dot_S64x2000_S2000x64_S64x64_1_0_0_1_n_n.contr.Idx) :
    (dot_S64x2000_S2000x64_S64x64_1_0_0_1_n_n.rhsIdx i q 1).val = (i 1).val := by
  unfold DotDims.rhsIdx
  rw [dif_neg (show ¬(1 : Fin S2000x64.rank) ∈ dot_S64x2000_S2000x64_S64x64_1_0_0_1_n_n.rhsBatch by decide), dif_pos (show (1 : Fin S2000x64.rank) ∈ dot_S64x2000_S2000x64_S64x64_1_0_0_1_n_n.rhsNonContracting by decide)]
  rfl

/-- Exponentials against the block: row b of P against column d of the block. -/
theorem weighted_at (P : FVec Ideal S64x2000 .f32) (B : FVec Ideal S2000x64 .f32) (b d : Fin 64) :
    matmul dot_S64x2000_S2000x64_S64x64_1_0_0_1_n_n none P B (constant (F := Ideal) S64x64 .f32 0x00000000#32) (ix2 b d)
      = ∑ r : Fin 2000, P (ix2 b r) * B (ix2 r d) := by
  simp only [matmul]
  rw [Ideal.matmul_constant_zero_apply, ← Equiv.sum_comp (ValueIdx.contrEquiv1 dot_S64x2000_S2000x64_S64x64_1_0_0_1_n_n 2000 rfl rfl).symm]
  refine Finset.sum_congr rfl fun k _ => ?_
  have hk := ValueIdx.contrEquiv1_symm_val dot_S64x2000_S2000x64_S64x64_1_0_0_1_n_n 2000 rfl rfl k
  have el : dot_S64x2000_S2000x64_S64x64_1_0_0_1_n_n.lhsIdx (ix2 b d) ((ValueIdx.contrEquiv1 dot_S64x2000_S2000x64_S64x64_1_0_0_1_n_n 2000 rfl rfl).symm k) = ix2 b k := funext fun a => Fin.ext (by
    match a with
    | ⟨0, _⟩ => exact lhs_weighted_0 _ _
    | ⟨1, _⟩ => exact (lhs_weighted_1 _ _).trans hk)
  have er : dot_S64x2000_S2000x64_S64x64_1_0_0_1_n_n.rhsIdx (ix2 b d) ((ValueIdx.contrEquiv1 dot_S64x2000_S2000x64_S64x64_1_0_0_1_n_n 2000 rfl rfl).symm k) = ix2 k d := funext fun a => Fin.ext (by
    match a with
    | ⟨0, _⟩ => exact (rhs_weighted_0 _ _).trans hk
    | ⟨1, _⟩ => exact rhs_weighted_1 _ _)
  rw [el, er]

/-! ## The step at an entry -/

variable (Q : FVec Ideal S64x64 .f32) (B : FVec Ideal S2000x64 .f32) (lvl tot : FVec Ideal S64x1 .f32) (acc : FVec Ideal S64x64 .f32)

/-- The new level of row b. -/
theorem level_at (b : Fin 64) :
    k0_pay6 (F := Ideal) Q B lvl (ix2 b (0 : Fin 1))
      = max (lvl (ix2 b (0 : Fin 1))) ((Finset.univ : Finset (Fin 2000)).fold max (⊥ : EReal) (fun r => k0_pay5 (F := Ideal) Q B (ix2 b r))) := by
  unfold k0_pay6
  rw [maximumf_apply, column_cast, row_max]

/-- The level the body stores is the new level. -/
theorem stored_level_at (b : Fin 64) :
    k0_pay9 (F := Ideal) Q B lvl (ix2 b (0 : Fin 1)) = k0_pay6 (F := Ideal) Q B lvl (ix2 b (0 : Fin 1)) := by
  unfold k0_pay9
  rw [shapeCast_self]

/-- The rescaling factor of row b. -/
theorem factor_at (b : Fin 64) :
    k0_pay7 (F := Ideal) Q B lvl (ix2 b (0 : Fin 1))
      = Ideal.exp (lvl (ix2 b (0 : Fin 1)) - k0_pay6 (F := Ideal) Q B lvl (ix2 b (0 : Fin 1))) := rfl

/-- The block's exponential at (b, r). -/
theorem exp_at (b : Fin 64) (r : Fin 2000) :
    k0_pay8 (F := Ideal) Q B lvl (ix2 b r)
      = Ideal.exp (k0_pay5 (F := Ideal) Q B (ix2 b r) - k0_pay6 (F := Ideal) Q B lvl (ix2 b (0 : Fin 1))) := by
  unfold k0_pay8
  show Ideal.exp (k0_pay5 (F := Ideal) Q B (ix2 b r) - broadcastTo S64x2000 (k0_pay6 (F := Ideal) Q B lvl) _ (ix2 b r)) = _
  rw [column_spread]

/-- The new sum of row b. -/
theorem total_at (b : Fin 64) :
    k0_pay10 (F := Ideal) Q B lvl tot (ix2 b (0 : Fin 1))
      = tot (ix2 b (0 : Fin 1)) * k0_pay7 (F := Ideal) Q B lvl (ix2 b (0 : Fin 1)) + ∑ r : Fin 2000, k0_pay8 (F := Ideal) Q B lvl (ix2 b r) := by
  unfold k0_pay10
  rw [shapeCast_self, addf_apply, mulf_apply, column_cast, row_sum]

/-- The new weighted sum at (b, d). -/
theorem weighted_sum_at (b d : Fin 64) :
    k0_pay11 (F := Ideal) Q B lvl acc (ix2 b d)
      = acc (ix2 b d) * k0_pay7 (F := Ideal) Q B lvl (ix2 b (0 : Fin 1)) + ∑ r : Fin 2000, k0_pay8 (F := Ideal) Q B lvl (ix2 b r) * B (ix2 r d) := by
  unfold k0_pay11
  rw [shapeCast_self, addf_apply, mulf_apply, column_spread, weighted_at]

/-- The output at (b, d): the weighted sum over the sum. -/
theorem output_at (b d : Fin 64) :
    k0_pay1 (F := Ideal) acc tot (ix2 b d) = Ideal.div (acc (ix2 b d)) (tot (ix2 b (0 : Fin 1))) := by
  unfold k0_pay1
  rw [divf_apply, column_spread]

/-! ## The reset values -/

theorem reset_acc (i : S64x64.Idx) : (k0_pay2 (F := Ideal)) i = 0 := by
  unfold k0_pay2
  rw [shapeCast_self]
  exact zero_f32

theorem reset_level (i : S64x1.Idx) : (k0_pay3 (F := Ideal)) i = ⊥ := by
  unfold k0_pay3
  rw [shapeCast_self]
  exact neg_inf_f32

theorem reset_total (i : S64x1.Idx) : (k0_pay4 (F := Ideal)) i = 0 := by
  unfold k0_pay4
  rw [shapeCast_self]
  exact zero_f32

end Cert.KernelIdeal.Payloads

end
-- ==== Proof.Step.lean ====
/-
  One grid point, for one query row, as a step of the streaming softmax.

  If the point's logits in row b are the reals x t r and the block's entries are the reals w t r d, then what the body
  leaves at row b of the three scratch arrays is the streaming state with block t absorbed: from the reset values at
  the first point, from the state the point before left at every later one.
-/
import proofs.«149138_g9818295239233_cont_9to1_m_996_1_alg».proof.Proof.Payloads
import proofs.«149138_g9818295239233_cont_9to1_m_996_1_alg».proof.Proof.Softmax

noncomputable section

namespace Cert.KernelIdeal.Step

open Cert.KernelIdeal Cert.KernelIdeal.Gen Cert.KernelIdeal.Payloads Cert.Softmax Idealize.ShloMosaic Idealize.ShloMosaic.ValueIdx

variable {ι : Type} [DecidableEq ι] (xs : ι → Fin 2000 → ℝ) (ws : ι → Fin 2000 → Fin 64 → ℝ)
variable (Q : FVec Ideal S64x64 .f32) (B : FVec Ideal S2000x64 .f32)

/-- The largest logit of the block's row, over real logits. -/
theorem fold_logits (t : ι) (b : Fin 64) (hx : ∀ r, k0_pay5 (F := Ideal) Q B (ix2 b r) = ((xs t r : ℝ) : EReal)) :
    (Finset.univ : Finset (Fin 2000)).fold max (⊥ : EReal) (fun r => k0_pay5 (F := Ideal) Q B (ix2 b r))
      = (Finset.univ : Finset (Fin 2000)).fold max (⊥ : EReal) (fun r => ((xs t r : ℝ) : EReal)) :=
  congrArg (fun f => (Finset.univ : Finset (Fin 2000)).fold max (⊥ : EReal) f) (funext hx)

/-- The first point: the step from the reset values absorbs block t alone. -/
theorem absorb_first (t : ι) (b : Fin 64)
    (hx : ∀ r, k0_pay5 (F := Ideal) Q B (ix2 b r) = ((xs t r : ℝ) : EReal))
    (hw : ∀ r d, B (ix2 r d) = ((ws t r d : ℝ) : EReal)) :
    Absorbed xs ws {t}
      (k0_pay9 (F := Ideal) Q B (k0_pay3 (F := Ideal)) (ix2 b (0 : Fin 1)))
      (k0_pay10 (F := Ideal) Q B (k0_pay3 (F := Ideal)) (k0_pay4 (F := Ideal)) (ix2 b (0 : Fin 1)))
      (fun d => k0_pay11 (F := Ideal) Q B (k0_pay3 (F := Ideal)) (k0_pay2 (F := Ideal)) (ix2 b d)) := by
  refine Absorbed.first t ?_ ?_ ?_
  · rw [stored_level_at, level_at, reset_level, fold_logits xs Q B t b hx]
  · rw [total_at, factor_at, reset_total, reset_level, ← stored_level_at]
    refine congrArg (fun z => _ + z) (Finset.sum_congr rfl fun r _ => by rw [exp_at, hx r, ← stored_level_at])
  · intro d
    rw [weighted_sum_at, factor_at, reset_acc, reset_level, ← stored_level_at]
    refine congrArg (fun z => _ + z) (Finset.sum_congr rfl fun r _ => by rw [exp_at, hx r, hw r d, ← stored_level_at])

/-- A later point: the step from the state with the blocks in A absorbed absorbs block t as well. -/
theorem absorb_next (A : Finset ι) (t : ι) (ht : t ∉ A) (b : Fin 64)
    (lvl tot : FVec Ideal S64x1 .f32) (acc : FVec Ideal S64x64 .f32)
    (hx : ∀ r, k0_pay5 (F := Ideal) Q B (ix2 b r) = ((xs t r : ℝ) : EReal))
    (hw : ∀ r d, B (ix2 r d) = ((ws t r d : ℝ) : EReal))
    (h : Absorbed xs ws A (lvl (ix2 b (0 : Fin 1))) (tot (ix2 b (0 : Fin 1))) (fun d => acc (ix2 b d))) :
    Absorbed xs ws (insert t A)
      (k0_pay9 (F := Ideal) Q B lvl (ix2 b (0 : Fin 1)))
      (k0_pay10 (F := Ideal) Q B lvl tot (ix2 b (0 : Fin 1)))
      (fun d => k0_pay11 (F := Ideal) Q B lvl acc (ix2 b d)) := by
  refine Absorbed.next h ht ?_ ?_ ?_
  · rw [stored_level_at, level_at, fold_logits xs Q B t b hx]
  · rw [total_at, factor_at, ← stored_level_at]
    refine congrArg (fun z => _ + z) (Finset.sum_congr rfl fun r _ => by rw [exp_at, hx r, ← stored_level_at])
  · intro d
    rw [weighted_sum_at, factor_at, ← stored_level_at]
    refine congrArg (fun z => _ + z) (Finset.sum_congr rfl fun r _ => by rw [exp_at, hx r, hw r d, ← stored_level_at])

end Cert.KernelIdeal.Step

end
-- ==== Proof.KernelValue.lean ====
/-
  What the kernel's result array holds, entry by entry, over real arrays.

  The query block of every point is the whole query; the memory block of point t is rows 2000·t … 2000·t + 1999. So at
  point t the body's logits in row b are the real logits of query row b against those memory rows, and by induction on
  the point the three scratch arrays hold, row by row, the streaming softmax state with blocks 0 … t absorbed. The
  output is written back once, at the last point, from the state with every block absorbed: at (b, d) it is the
  weighted sum over the sum, which is the softmax-weighted average of column d of the memory.
-/
import proofs.«149138_g9818295239233_cont_9to1_m_996_1_alg».proof.Proof.Gen.KernelIdeal.Value
import proofs.«149138_g9818295239233_cont_9to1_m_996_1_alg».proof.Proof.Pieces
import proofs.«149138_g9818295239233_cont_9to1_m_996_1_alg».proof.Proof.Step
import proofs.«149138_g9818295239233_cont_9to1_m_996_1_alg».proof.Proof.Rows

set_option maxRecDepth 16384

noncomputable section

namespace Cert.KernelIdeal.Retrieve

open Cert.KernelIdeal Cert.KernelIdeal.Gen Cert.KernelIdeal.Value Cert.KernelIdeal.Pieces Cert.KernelIdeal.Payloads
open Cert.KernelIdeal.Step Cert.Softmax Cert.Rows
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The query array and the memory array as the region finds them. -/
abbrev qarr (c : Dev nD) : FVec Ideal S64x64 .f32 := V m c main_arg0
abbrev marr (c : Dev nD) : FVec Ideal S1000000x64 .f32 := V m c main_arg1
/-- The two input blocks of point t. -/
abbrev qblk (c : Dev nD) (t : Fin cfg0.N) : FVec Ideal S64x64 .f32 := iblk m c 0 t
abbrev mblk (c : Dev nD) (t : Fin cfg0.N) : FVec Ideal S2000x64 .f32 := iblk m c 1 t

/-- A grid point as a block number. -/
def blockOf (t : Fin cfg0.N) : Fin 500 := ⟨t.val, lt_of_lt_of_eq t.isLt (show cfg0.N = 500 from N_0)⟩

/-- The printed index maps over the grid: the query and the output sit at block (0, 0) at every point; the memory's
    block at point t is block (t, 0). -/
theorem index_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)

/-- The query block is the query. -/
theorem qblk_at (c : Dev nD) (t : Fin cfg0.N) (b k : Fin 64) : qblk m c t (ix2 b k) = qarr m c (ix2 b k) := by
  obtain ⟨e0, e1, -, -, -, -⟩ := index_facts t
  show V m c main_arg0 (((cfg0.win 0).blk t).view.emb (ix2 b k)) = V m c main_arg0 (ix2 b k)
  refine congrArg _ (funext fun a => Fin.ext ?_)
  match a with
  | ⟨0, _⟩ => show win0_0.index t (0 : Fin 2) * 64 + 1 * b.val = b.val; omega
  | ⟨1, _⟩ => show win0_0.index t (1 : Fin 2) * 64 + 1 * k.val = k.val; omega

/-- Row r of the memory block of point t is memory row 2000·t + r. -/
theorem mblk_at (c : Dev nD) (t : Fin cfg0.N) (r : Fin 2000) (k : Fin 64) :
    mblk m c t (ix2 r k) = marr m c (ix2 (rowOf (blockOf t, r)) k) := by
  obtain ⟨-, -, e0, e1, -, -⟩ := index_facts t
  show V m c main_arg1 (((cfg0.win 1).blk t).view.emb (ix2 r k)) = V m c main_arg1 (ix2 (rowOf (blockOf t, r)) k)
  refine congrArg _ (funext fun a => Fin.ext ?_)
  match a with
  | ⟨0, _⟩ =>
    show win0_1.index t (0 : Fin 2) * 2000 + 1 * r.val = (rowOf (blockOf t, r)).val
    rw [rowOf_val]; show _ = t.val * 2000 + r.val; omega
  | ⟨1, _⟩ => show win0_1.index t (1 : Fin 2) * 64 + 1 * k.val = k.val; omega

section Real

variable (c : Dev nD) (hq : ∀ i, ∃ r : ℝ, qarr m c i = (r : EReal)) (hv : ∀ i, ∃ r : ℝ, marr m c i = (r : EReal))

/-- The logits of query row b against block s, and the block's entries, as reals. -/
abbrev xs (b : Fin 64) : Fin 500 → Fin 2000 → ℝ := fun s r => logit (qarr m c) (marr m c) b (rowOf (s, r))
abbrev ws : Fin 500 → Fin 2000 → Fin 64 → ℝ := fun s r d => weight (marr m c) (rowOf (s, r)) d

include hq hv in
/-- The body's logits at point t are the real logits against block t. -/
theorem block_logits (t : Fin cfg0.N) (b : Fin 64) (r : Fin 2000) :
    k0_pay5 (F := Ideal) (qblk m c t) (mblk m c t) (ix2 b r) = ((xs m c b (blockOf t) r : ℝ) : EReal) := by
  rw [logits_at]
  simp only [qblk_at, mblk_at]
  exact sum_mul_eq_logit (qarr m c) (marr m c) hq hv b (rowOf (blockOf t, r))

include hv in
/-- The memory block's entries are the real weights of block t. -/
theorem block_weights (t : Fin cfg0.N) (r : Fin 2000) (d : Fin 64) :
    mblk m c t (ix2 r d) = ((ws m c (blockOf t) r d : ℝ) : EReal) := by
  rw [mblk_at]
  exact entry_eq_weight (marr m c) hv _ d

/-! ## What each kind of point leaves, as the body's terms of the point's blocks -/

theorem left_first (t : Fin cfg0.N) (h0 : t.val % 500 = 0) (h1 : ¬t.val % 500 = 499) :
    (outsAt0 m c t.val t.isLt).2.1 = k0_pay11 (F := Ideal) (qblk m c t) (mblk m c t) (k0_pay3 (F := Ideal)) (k0_pay2 (F := Ideal))
    ∧ (outsAt0 m c t.val t.isLt).2.2.1 = k0_pay9 (F := Ideal) (qblk m c t) (mblk m c t) (k0_pay3 (F := Ideal))
    ∧ (outsAt0 m c t.val t.isLt).2.2.2 = k0_pay10 (F := Ideal) (qblk m c t) (mblk m c t) (k0_pay3 (F := Ideal)) (k0_pay4 (F := Ideal)) := by
  rw [outsAt0_A m c t h0 h1]
  dsimp only
  exact ⟨left_A_0 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t),
    left_A_1 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t),
    left_A_2 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)⟩

theorem left_middle (t : Fin cfg0.N) (h0 : ¬t.val % 500 = 0) (h1 : ¬t.val % 500 = 499) :
    (outsAt0 m c t.val t.isLt).2.1 = k0_pay11 (F := Ideal) (qblk m c t) (mblk m c t) (outsAt0 m c (t.val - 1) (Nat.lt_of_le_of_lt (Nat.sub_le _ _) t.isLt)).2.2.1 (outsAt0 m c (t.val - 1) (Nat.lt_of_le_of_lt (Nat.sub_le _ _) t.isLt)).2.1
    ∧ (outsAt0 m c t.val t.isLt).2.2.1 = k0_pay9 (F := Ideal) (qblk m c t) (mblk m c t) (outsAt0 m c (t.val - 1) (Nat.lt_of_le_of_lt (Nat.sub_le _ _) t.isLt)).2.2.1
    ∧ (outsAt0 m c t.val t.isLt).2.2.2 = k0_pay10 (F := Ideal) (qblk m c t) (mblk m c t) (outsAt0 m c (t.val - 1) (Nat.lt_of_le_of_lt (Nat.sub_le _ _) t.isLt)).2.2.1 (outsAt0 m c (t.val - 1) (Nat.lt_of_le_of_lt (Nat.sub_le _ _) t.isLt)).2.2.2 := by
  rw [outsAt0_B m c t h0 h1]
  dsimp only
  exact ⟨left_B_0 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    left_B_1 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    left_B_2 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2⟩

theorem left_last (t : Fin cfg0.N) (h0 : ¬t.val % 500 = 0) (h1 : t.val % 500 = 499) :
    (outsAt0 m c t.val t.isLt).1 = k0_pay1 (F := Ideal) (k0_pay11 (F := Ideal) (qblk m c t) (mblk m c t) (outsAt0 m c (t.val - 1) (Nat.lt_of_le_of_lt (Nat.sub_le _ _) t.isLt)).2.2.1 (outsAt0 m c (t.val - 1) (Nat.lt_of_le_of_lt (Nat.sub_le _ _) t.isLt)).2.1) (k0_pay10 (F := Ideal) (qblk m c t) (mblk m c t) (outsAt0 m c (t.val - 1) (Nat.lt_of_le_of_lt (Nat.sub_le _ _) t.isLt)).2.2.1 (outsAt0 m c (t.val - 1) (Nat.lt_of_le_of_lt (Nat.sub_le _ _) t.isLt)).2.2.2)
    ∧ (outsAt0 m c t.val t.isLt).2.1 = k0_pay11 (F := Ideal) (qblk m c t) (mblk m c t) (outsAt0 m c (t.val - 1) (Nat.lt_of_le_of_lt (Nat.sub_le _ _) t.isLt)).2.2.1 (outsAt0 m c (t.val - 1) (Nat.lt_of_le_of_lt (Nat.sub_le _ _) t.isLt)).2.1
    ∧ (outsAt0 m c t.val t.isLt).2.2.1 = k0_pay9 (F := Ideal) (qblk m c t) (mblk m c t) (outsAt0 m c (t.val - 1) (Nat.lt_of_le_of_lt (Nat.sub_le _ _) t.isLt)).2.2.1
    ∧ (outsAt0 m c t.val t.isLt).2.2.2 = k0_pay10 (F := Ideal) (qblk m c t) (mblk m c t) (outsAt0 m c (t.val - 1) (Nat.lt_of_le_of_lt (Nat.sub_le _ _) t.isLt)).2.2.1 (outsAt0 m c (t.val - 1) (Nat.lt_of_le_of_lt (Nat.sub_le _ _) t.isLt)).2.2.2 := by
  rw [outsAt0_C m c t h0 h1]
  dsimp only
  exact ⟨out_C (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    left_C_0 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    left_C_1 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    left_C_2 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2⟩

/-! ## The scratch arrays after each point -/

/-- The blocks absorbed once point n has run. -/
abbrev upTo (n : ℕ) : Finset (Fin 500) := Finset.univ.filter fun s => s.val ≤ n

theorem upTo_zero : upTo 0 = {(⟨0, by decide⟩ : Fin 500)} := by
  ext s; simp only [upTo, Finset.mem_filter, Finset.mem_univ, true_and, Finset.mem_singleton, Fin.ext_iff]; omega

theorem upTo_succ (n : ℕ) (h : n + 1 < 500) : upTo (n + 1) = insert (⟨n + 1, h⟩ : Fin 500) (upTo n) := by
  ext s; simp only [upTo, Finset.mem_filter, Finset.mem_univ, true_and, Finset.mem_insert, Fin.ext_iff]; omega

theorem not_mem_upTo (n : ℕ) (h : n + 1 < 500) : (⟨n + 1, h⟩ : Fin 500) ∉ upTo n := by
  simp only [upTo, Finset.mem_filter, Finset.mem_univ, true_and]; omega

theorem upTo_last : upTo 499 = Finset.univ := by
  ext s; simp only [upTo, Finset.mem_filter, Finset.mem_univ, true_and, iff_true]; have := s.isLt; omega

include hq hv in
/-- After point n the three scratch arrays hold, in every row, the streaming state with blocks 0 … n absorbed. -/
theorem state_after (n : ℕ) (hn : n < cfg0.N) (b : Fin 64) :
    Absorbed (xs m c b) (ws m c) (upTo n)
      ((outsAt0 m c n hn).2.2.1 (ix2 b (0 : Fin 1))) ((outsAt0 m c n hn).2.2.2 (ix2 b (0 : Fin 1)))
      (fun d => (outsAt0 m c n hn).2.1 (ix2 b d)) := by
  have hN : cfg0.N = 500 := N_0
  induction n with
  | zero =>
    obtain ⟨e0, e1, e2⟩ := left_first m c ⟨0, hn⟩ (show (0 : ℕ) % 500 = 0 from rfl) (show ¬(0 : ℕ) % 500 = 499 by decide)
    have e0' : (outsAt0 m c 0 hn).2.1 = _ := e0
    have e1' : (outsAt0 m c 0 hn).2.2.1 = _ := e1
    have e2' : (outsAt0 m c 0 hn).2.2.2 = _ := e2
    rw [e0', e1', e2', upTo_zero]
    exact absorb_first (xs m c b) (ws m c) (qblk m c ⟨0, hn⟩) (mblk m c ⟨0, hn⟩) (⟨0, by decide⟩ : Fin 500) b
      (fun r => block_logits m c hq hv ⟨0, hn⟩ b r) (fun r d => block_weights m c hv ⟨0, hn⟩ r d)
  | succ n ih =>
    have hn' : n < cfg0.N := Nat.lt_of_succ_lt hn
    have h500 : n + 1 < 500 := lt_of_lt_of_eq hn hN
    have h0 : ¬(n + 1) % 500 = 0 := by omega
    have prev := ih hn'
    have step : Absorbed (xs m c b) (ws m c) (insert (⟨n + 1, h500⟩ : Fin 500) (upTo n))
        (k0_pay9 (F := Ideal) (qblk m c ⟨n + 1, hn⟩) (mblk m c ⟨n + 1, hn⟩) (outsAt0 m c n hn').2.2.1 (ix2 b (0 : Fin 1)))
        (k0_pay10 (F := Ideal) (qblk m c ⟨n + 1, hn⟩) (mblk m c ⟨n + 1, hn⟩) (outsAt0 m c n hn').2.2.1 (outsAt0 m c n hn').2.2.2 (ix2 b (0 : Fin 1)))
        (fun d => k0_pay11 (F := Ideal) (qblk m c ⟨n + 1, hn⟩) (mblk m c ⟨n + 1, hn⟩) (outsAt0 m c n hn').2.2.1 (outsAt0 m c n hn').2.1 (ix2 b d)) :=
      absorb_next (xs m c b) (ws m c) (qblk m c ⟨n + 1, hn⟩) (mblk m c ⟨n + 1, hn⟩) (upTo n) (⟨n + 1, h500⟩ : Fin 500)
        (not_mem_upTo n h500) b (outsAt0 m c n hn').2.2.1 (outsAt0 m c n hn').2.2.2 (outsAt0 m c n hn').2.1
        (fun r => block_logits m c hq hv ⟨n + 1, hn⟩ b r) (fun r d => block_weights m c hv ⟨n + 1, hn⟩ r d) prev
    rw [upTo_succ n h500]
    by_cases h1 : (n + 1) % 500 = 499
    · obtain ⟨-, e0, e1, e2⟩ := left_last m c ⟨n + 1, hn⟩ h0 h1
      have e0' : (outsAt0 m c (n + 1) hn).2.1 = _ := e0
      have e1' : (outsAt0 m c (n + 1) hn).2.2.1 = _ := e1
      have e2' : (outsAt0 m c (n + 1) hn).2.2.2 = _ := e2
      rw [e0', e1', e2']
      exact step
    · obtain ⟨e0, e1, e2⟩ := left_middle m c ⟨n + 1, hn⟩ h0 h1
      have e0' : (outsAt0 m c (n + 1) hn).2.1 = _ := e0
      have e1' : (outsAt0 m c (n + 1) hn).2.2.1 = _ := e1
      have e2' : (outsAt0 m c (n + 1) hn).2.2.2 = _ := e2
      rw [e0', e1', e2']
      exact step

end Real

end Cert.KernelIdeal.Retrieve

end
-- ==== Proof.KernelResult.lean ====
/-
  The result array after the kernel's run.

  The output window sits at block (0, 0), the whole result array, at every point, and is written back at the last point
  only. So after the run the result array is what the last point left in the output block: at (b, d) the weighted sum
  over the sum of the state with all 500 blocks absorbed, the softmax-weighted average of column d of the memory,
  written as the reference writes it against any real level.

  Of the last point only one property is used: its number t satisfies t mod 500 = 499 (so t = 499, it is not the first
  point, and every block has been absorbed once it has run).
-/
import proofs.«149138_g9818295239233_cont_9to1_m_996_1_alg».proof.Proof.KernelValue

set_option maxRecDepth 16384

noncomputable section

namespace Cert.KernelIdeal.Retrieve

open Cert.KernelIdeal Cert.KernelIdeal.Gen Cert.KernelIdeal.Value Cert.KernelIdeal.Payloads
open Cert.Softmax Cert.Rows
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (c : Dev nD)

/-- What point t leaves in the output block. -/
def written (t : Fin cfg0.N) : FVec Ideal S64x64 .f32 := (outsAt0 m c t.val t.isLt).1

/-- The one write-back, at the last point t, writes the whole array with what t left. -/
theorem written_back (t : Fin cfg0.N) (h1 : t.val % 500 = 499) (t' : Fin cfg0.N) (hf : (cfg0.win 2).flush t' = true) :
    (dats m 0 c).flushed 2 t' = ((cfg0.win 2).blk t').view.read (Elt Ideal) (written m c t) := by
  have h499 : t'.val % 500 = 499 := (flush0_2 t').mp hf
  have hN : t.val < 500 := lt_of_lt_of_eq t.isLt (show cfg0.N = 500 from N_0)
  have hN' : t'.val < 500 := lt_of_lt_of_eq t'.isLt (show cfg0.N = 500 from N_0)
  have ht : t' = t := Fin.ext (by omega)
  subst ht
  obtain ⟨-, -, -, -, e0, e1⟩ := index_facts t'
  rw [flushed2]
  funext j
  show (outsAt0 m c t'.val t'.isLt).1 j = (outsAt0 m c t'.val t'.isLt).1 (((cfg0.win 2).blk t').view.emb j)
  refine congrArg ((outsAt0 m c t'.val t'.isLt).1) (funext fun a => Fin.ext ?_)
  match a with
  | ⟨0, _⟩ => show (j 0).val = win0_2.index t' (0 : Fin 2) * 64 + 1 * (j 0).val; omega
  | ⟨1, _⟩ => show (j 1).val = win0_2.index t' (1 : Fin 2) * 64 + 1 * (j 1).val; omega

/-- The result array after the run is, entry by entry, what the last point left in the output block: the last point's
    block of the final array, read back, is that block of what was written, and the block is the whole array. -/
theorem result_entry (t : Fin cfg0.N) (h1 : t.val % 500 = 499) (i : S64x64.Idx) :
    (dats m 0 c).arrAt 2 cfg0.N i = written m c t i := by
  obtain ⟨-, -, -, -, e0, e1⟩ := index_facts t
  have emb : ((cfg0.win 2).blk t).view.emb i = i := funext fun a => Fin.ext (by
    match a with
    | ⟨0, _⟩ => show win0_2.index t (0 : Fin 2) * 64 + 1 * (i 0).val = (i 0).val; omega
    | ⟨1, _⟩ => show win0_2.index t (1 : Fin 2) * 64 + 1 * (i 1).val = (i 1).val; omega)
  have h : (dats m 0 c).arrAt 2 cfg0.N (((cfg0.win 2).blk t).view.emb i)
      = written m c t (((cfg0.win 2).blk t).view.emb i) :=
    congrFun ((dats m 0 c).read_blk_arrAt 2 (written m c t) (fun t' hf => written_back m c t h1 t' hf) t
      ((flush0_2 t).mpr h1)) i
  rwa [emb] at h

/-- The kernel's result at (b, d), over real arrays, in the reference's form against any real level ν, read at a last
    point t. -/
theorem result_at_last (hq : ∀ i, ∃ r : ℝ, qarr m c i = (r : EReal)) (hv : ∀ i, ∃ r : ℝ, marr m c i = (r : EReal))
    (t : Fin cfg0.N) (h1 : t.val % 500 = 499) (b d : Fin 64) (ν : ℝ) :
    (dats m 0 c).arrAt 2 cfg0.N (ix2 b d)
      = ∑ n : Fin 1000000, Ideal.div (Ideal.exp (((logit (qarr m c) (marr m c) b n : ℝ) : EReal) - (ν : EReal)))
          (0 + ∑ k : Fin 1000000, Ideal.exp (((logit (qarr m c) (marr m c) b k : ℝ) : EReal) - (ν : EReal)))
          * ((weight (marr m c) n d : ℝ) : EReal) := by
  have hN : t.val < 500 := lt_of_lt_of_eq t.isLt (show cfg0.N = 500 from N_0)
  have h0 : ¬t.val % 500 = 0 := by omega
  have h499 : t.val = 499 := by omega
  obtain ⟨eo, e0, -, e2⟩ := left_last m c t h0 h1
  have hu : upTo t.val = Finset.univ := by rw [h499]; exact upTo_last
  have st := state_after m c hq hv t.val t.isLt b
  rw [hu] at st
  rw [result_entry m c t h1]
  unfold written
  rw [eo, output_at, ← e0, ← e2]
  exact Absorbed.quotient rowOf (logit (qarr m c) (marr m c) b) (weight (marr m c)) st ν d

/-- The same, with the last point supplied. -/
theorem result_at (hq : ∀ i, ∃ r : ℝ, qarr m c i = (r : EReal)) (hv : ∀ i, ∃ r : ℝ, marr m c i = (r : EReal))
    (b d : Fin 64) (ν : ℝ) :
    (dats m 0 c).arrAt 2 cfg0.N (ix2 b d)
      = ∑ n : Fin 1000000, Ideal.div (Ideal.exp (((logit (qarr m c) (marr m c) b n : ℝ) : EReal) - (ν : EReal)))
          (0 + ∑ k : Fin 1000000, Ideal.exp (((logit (qarr m c) (marr m c) b k : ℝ) : EReal) - (ν : EReal)))
          * ((weight (marr m c) n d : ℝ) : EReal) := by
  obtain ⟨t, h1⟩ : ∃ t : Fin cfg0.N, t.val % 500 = 499 :=
    ⟨⟨499, lt_of_lt_of_eq (by decide : 499 < 500) (show 500 = cfg0.N from N_0.symm)⟩, rfl⟩
  exact result_at_last m c hq hv t h1 b d ν

end Cert.KernelIdeal.Retrieve

end
-- ==== Proof.lean ====
/-
  A softmax-weighted read of a memory of a million rows, computed in one streaming pass, against the plain formula.

  The reference forms every logit (query row b against memory row n), subtracts the row's largest logit, exponentiates,
  divides by the row's total and multiplies the normalised weights into the memory: at (b, d) the sum over n of
  (exp (logit b n - level b) / total b) · memory (n, d).

  The kernel reads the memory once, 2000 rows at a time. It keeps a running level, a running total and running weighted
  sums; each block raises the level to the larger of the old level and the block's largest logit, rescales the old total
  and weighted sums by exp (old level - new level), and adds the block's terms. After the last block it writes
  weighted sum (b, d) / total (b).

  Under the precondition both arrays are real. Then every logit is real, every level is real (a row is never empty), every
  total is a positive real, and by induction over the blocks the kernel's running quantities are the sums of
  exp (logit - level) (times the memory's entries) over the rows seen so far. The two results are the same real number:
  the softmax-weighted average does not depend on the level, since a common factor exp (level - level') cancels between
  the weighted sum and the total, and dividing each term by the total or the whole sum by it is the same on the reals.

  The three frames are the generated ones (the reference's is its generated run with the result dropped); the ideal pass
  rewrote nothing, so the idealization claim is trivial.
-/
import proofs.«149138_g9818295239233_cont_9to1_m_996_1_alg».proof.Defs
import proofs.«149138_g9818295239233_cont_9to1_m_996_1_alg».proof.Proof.Gen.Kernel
import proofs.«149138_g9818295239233_cont_9to1_m_996_1_alg».proof.Proof.Gen.Kernel.Skeleton
import proofs.«149138_g9818295239233_cont_9to1_m_996_1_alg».proof.Proof.Gen.Kernel.Launch
import proofs.«149138_g9818295239233_cont_9to1_m_996_1_alg».proof.Proof.Gen.Kernel.Points
import proofs.«149138_g9818295239233_cont_9to1_m_996_1_alg».proof.Proof.Gen.Kernel.Frame
import proofs.«149138_g9818295239233_cont_9to1_m_996_1_alg».proof.Proof.Gen.KernelIdeal
import proofs.«149138_g9818295239233_cont_9to1_m_996_1_alg».proof.Proof.Gen.KernelIdeal.Skeleton
import proofs.«149138_g9818295239233_cont_9to1_m_996_1_alg».proof.Proof.Gen.KernelIdeal.Launch
import proofs.«149138_g9818295239233_cont_9to1_m_996_1_alg».proof.Proof.Gen.KernelIdeal.Points
import proofs.«149138_g9818295239233_cont_9to1_m_996_1_alg».proof.Proof.Gen.KernelIdeal.Frame
import proofs.«149138_g9818295239233_cont_9to1_m_996_1_alg».proof.Proof.Gen.ReferenceIdeal
import proofs.«149138_g9818295239233_cont_9to1_m_996_1_alg».proof.Proof.Gen.KernelIdeal.Value
import proofs.«149138_g9818295239233_cont_9to1_m_996_1_alg».proof.Proof.Gen.ReferenceIdeal.Run
import proofs.«149138_g9818295239233_cont_9to1_m_996_1_alg».proof.Proof.Gen.ReferenceIdeal.Read
import proofs.«149138_g9818295239233_cont_9to1_m_996_1_alg».proof.Proof.Gen.Pre_finite_inputs
import proofs.«149138_g9818295239233_cont_9to1_m_996_1_alg».proof.Proof.Finite
import proofs.«149138_g9818295239233_cont_9to1_m_996_1_alg».proof.Proof.RefValue
import proofs.«149138_g9818295239233_cont_9to1_m_996_1_alg».proof.Proof.KernelResult
import Idealize.ShloMosaic.Adequacy
import Idealize.ShloMosaic.Init

noncomputable section

namespace Cert.Proof

open Idealize.ShloMosaic Idealize.ShloMosaic.ValueIdx Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- From memories that agree on the two arrays, both programs end with the same result array: entry by entry the
    kernel's quotient of streamed sums is the reference's normalised sum, both read against the reference's level. -/
theorem algebraic : Cert.algebraic_KernelIdeal_ReferenceIdeal := by
  intro m ρ m' ρ' hpre hagree
  refine ⟨fun c => (Cert.KernelIdeal.Gen.dats m 0 c).arrAt 2 Cert.KernelIdeal.cfg0.N,
    Cert.KernelIdeal.Value.run_blocks m ρ, ?_⟩
  refine (θ_run Cert.ReferenceIdeal.defs _ _).mono (fun _ h c => ⟨(h c).1.trans ?_, (h c).2⟩)
    (Cert.ReferenceIdeal.Value.run (F := Ideal) m' ρ')
  obtain ⟨hq, hv⟩ := Cert.Finite.real_of_pre _ _ (hpre c)
  rw [(hagree c).1, (hagree c).2, Cert.ReferenceIdeal.Read.val_main_v15_eq]
  funext i
  obtain ⟨b, d, rfl⟩ : ∃ (b d : Fin 64), i = ix2 b d := ⟨i 0, i 1, eq_ix2 i⟩
  obtain ⟨ν, hν⟩ := Cert.RefValue.level_real _ _ hq hv b
  rw [Cert.RefValue.result_at _ _ hq hv b d ν hν]
  exact (Cert.KernelIdeal.Retrieve.result_at m c hq hv b d ν).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
